-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x1152 : S_.BroadcastsInDim S512x1152 (![] : Fin 0 → Fin S512x1152.rank)
  reducesTo_S512x1152_S_d0_1 : S512x1152.ReducesTo [0, 1] S_
  bcast_S_S1152 : S_.BroadcastsInDim S1152 (![] : Fin 0 → Fin S1152.rank)
  reducesTo_S1152_S_d0 : S1152.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1152 .f32 := Host.absf main_arg5
  let main_cst_6 : FVec F S_ .f32 := constant S_ .f32 0x7F800000#32
  let main_v20 : FVec F S512x1152 .f32 := broadcastInDim S512x1152 ![] bcast_S_S512x1152 main_cst_6
  let main_v21 : IVec S512x1152 1 := cmpf .olt main_v19 main_v20
  let main_c_7 : IVec S_ 1 := constantI S_ 1 1#1
  let main_v22 : IVec S_ 1 := (fun x v => Host.reduce IntOp.andi x v reducesTo_S512x1152_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S200000x128 .f32) (main_arg2 : IVec S200000x2 32) (main_arg3 : FVec F S384x512 .f32) (main_arg4 : FVec F S512 .f32) (main_arg5 : FVec F S512x1152 .f32) (main_arg6 : FVec F S1152 .f32) (main_arg7 : FVec F S512x512 .f32) (main_arg8 : FVec F S512 .f32) (main_arg9 : FVec F S512x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x512 .f32 := Host.absf main_arg3
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x512 : Shape := ⟨2, ![200000, 512]⟩
abbrev S800x384 : Shape := ⟨2, ![800, 384]⟩
abbrev S800x512 : Shape := ⟨2, ![800, 512]⟩
abbrev S800x128 : Shape := ⟨2, ![800, 128]⟩
abbrev S1x512 : Shape := ⟨2, ![1, 512]⟩
abbrev S800x1152 : Shape := ⟨2, ![800, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S2000x512 : Shape := ⟨2, ![2000, 512]⟩
abbrev S2000x1 : Shape := ⟨2, ![2000, 1]⟩
abbrev S2000x128 : Shape := ⟨2, ![2000, 128]⟩
abbrev S1x128 : Shape := ⟨2, ![1, 128]⟩

abbrev nBuf : Space → Nat
  | .hbm => 87
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S50000x128, .bf16⟩
  | .hbm, ⟨16, _⟩ => ⟨S200000x128, .bf16⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x128, .bf16⟩
  | .hbm, ⟨26, _⟩ => ⟨S_, .i32⟩
  | .hbm, ⟨27, _⟩ => ⟨S200000, .i32⟩
  | .hbm, ⟨28, _⟩ => ⟨S200000, .i1⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S200000, .i32⟩
  | .hbm, ⟨33, _⟩ => ⟨S200000x1, .i32⟩
  | .hbm, ⟨34, _⟩ => ⟨S200000x128, .bf16⟩
  | .hbm, ⟨35, _⟩ => ⟨S200000x384, .bf16⟩
  | .hbm, ⟨36, _⟩ => ⟨S384x512, .bf16⟩
  | .hbm, ⟨37, _⟩ => ⟨S512x1152, .bf16⟩
  | .hbm, ⟨38, _⟩ => ⟨S200000x512, .f32⟩
  | .hbm, ⟨39, _⟩ => ⟨S200000x128, .f32⟩
  | .hbm, ⟨40, _⟩ => ⟨S200000x512, .f32⟩
  | .hbm, ⟨41, _⟩ => ⟨S_, .f32⟩
  | .hbm, ⟨42, _⟩ => ⟨S50000x512, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S50000x512, .f32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S50000x512, .f32⟩
  | .hbm, ⟨61, _⟩ => ⟨S_, .f32⟩
  | .hbm, ⟨62, _⟩ => ⟨S200000, .f32⟩
  | .hbm, ⟨63, _⟩ => ⟨S_, .f32⟩
  | .hbm, ⟨64, _⟩ => ⟨S50000, .f32⟩
  | .hbm, ⟨65, _⟩ => ⟨S_, .i32⟩
  | .hbm, ⟨66, _⟩ => ⟨S200000, .i32⟩
  | .hbm, ⟨67, _⟩ => ⟨S200000, .i1⟩
  | .hbm, ⟨68, _⟩ => ⟨S_, .i32⟩
  | .hbm, ⟨69, _⟩ => ⟨S200000, .i32⟩
  | .hbm, ⟨70, _⟩ => ⟨S200000, .i32⟩
  | .hbm, ⟨71, _⟩ => ⟨S200000, .i32⟩
  | .hbm, ⟨72, _⟩ => ⟨S200000x1, .i32⟩
  | .hbm, ⟨73, _⟩ => ⟨S50000, .f32⟩
  | .hbm, ⟨74, _⟩ => ⟨S_, .i32⟩
  | .hbm, ⟨75, _⟩ => ⟨S200000, .i32⟩
  | .hbm, ⟨76, _⟩ => ⟨S200000, .i1⟩
  | .hbm, ⟨77, _⟩ => ⟨S_, .i32⟩
  | .hbm, ⟨78, _⟩ => ⟨S200000, .i32⟩
  | .hbm, ⟨79, _⟩ => ⟨S200000, .i32⟩
  | .hbm, ⟨80, _⟩ => ⟨S200000, .i32⟩
  | .hbm, ⟨81, _⟩ => ⟨S200000x1, .i32⟩
  | .hbm, ⟨82, _⟩ => ⟨S50000, .f32⟩
  | .hbm, ⟨83, _⟩ => ⟨S50000x1, .f32⟩
  | .hbm, ⟨84, _⟩ => ⟨S512x512, .bf16⟩
  | .hbm, ⟨85, _⟩ => ⟨S512x128, .bf16⟩
  | .hbm, ⟨86, _⟩ => ⟨S50000x128, .f32⟩
  | .local _ .vmem, ⟨0, _⟩ => ⟨S800x384, .bf16⟩
  | .local _ .vmem, ⟨1, _⟩ => ⟨S800x384, .bf16⟩
  | .local _ .vmem, ⟨2, _⟩ => ⟨S384x512, .bf16⟩
  | .local _ .vmem, ⟨3, _⟩ => ⟨S512, .f32⟩
  | .local _ .vmem, ⟨4, _⟩ => ⟨S512x1152, .bf16⟩
  | .local _ .vmem, ⟨5, _⟩ => ⟨S1152, .f32⟩
  | .local _ .vmem, ⟨6, _⟩ => ⟨S800x512, .f32⟩
  | .local _ .vmem, ⟨7, _⟩ => ⟨S800x512, .f32⟩
  | .local _ .vmem, ⟨8, _⟩ => ⟨S800x128, .f32⟩
  | .local _ .vmem, ⟨9, _⟩ => ⟨S800x128, .f32⟩
  | .local _ .vmem, ⟨10, _⟩ => ⟨S800x512, .f32⟩
  | .local _ .vmem, ⟨11, _⟩ => ⟨S800x512, .f32⟩
  | .local _ .vmem, ⟨12, _⟩ => ⟨S2000x512, .f32⟩
  | .local _ .vmem, ⟨13, _⟩ => ⟨S2000x512, .f32⟩
  | .local _ .vmem, ⟨14, _⟩ => ⟨S2000x1, .f32⟩
  | .local _ .vmem, ⟨15, _⟩ => ⟨S2000x1, .f32⟩
  | .local _ .vmem, ⟨16, _⟩ => ⟨S512x512, .bf16⟩
  | .local _ .vmem, ⟨17, _⟩ => ⟨S512, .f32⟩
  | .local _ .vmem, ⟨18, _⟩ => ⟨S512x128, .bf16⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_cst : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S800x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S800x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S800x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bitsLt_bf16_f32 : FTy.bits .bf16 < FTy.bits .f32
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  inb_S800x384_S800x384_0_0 : ∀ a, (![0, 0] : Fin 2 → Nat) a + S800x384.size a ≤ S800x384.size a
  h_S800x384 : 0 < S800x384.numel
  shapeCasts_S800x384_S800x384 : S800x384.ShapeCasts S800x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S512_S512_0 : ∀ a, (![0] : Fin 1 → Nat) a + S512.size a ≤ S512.size a
  h_S512 : 0 < S512.numel
  shapeCasts_S512_S1x512 : S512.ShapeCasts S1x512
  broadcasts_S1x512_S800x512 : S1x512.Broadcasts S800x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1152_S1152_0 : ∀ a, (![0] : Fin 1 → Nat) a + S1152.size a ≤ S1152.size a
  h_S1152 : 0 < S1152.numel
  shapeCasts_S1152_S1x1152 : S1152.ShapeCasts S1x1152
  broadcasts_S1x1152_S800x1152 : S1x1152.Broadcasts S800x1152
  slices_S800x1152_o0_0_S800x512 : S800x1152.Slices ![0, 0] S800x512
  inb_S800x512_S800x512_0_0 : ∀ a, (![0, 0] : Fin 2 → Nat) a + S800x512.size a ≤ S800x512.size a
  h_S800x512 : 0 < S800x512.numel
  slices_S800x1152_o0_512_S800x128 : S800x1152.Slices ![0, 512] S800x128
  inb_S800x128_S800x128_0_0 : ∀ a, (![0, 0] : Fin 2 → Nat) a + S800x128.size a ≤ S800x128.size a
  h_S800x128 : 0 < S800x128.numel
  slices_S800x1152_o0_640_S800x512 : S800x1152.Slices ![0, 640] S800x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x128_S200000x1_S200000x128_1_0_n_n_0_1_1128_wf : GatherDims.WF S50000x128 S200000x1 S200000x128 [1] [0] [] [0] [] 1 ![1, 128]
  dot_S800x384_S384x512_S800x512_1_0_0_1_n_n_wf : DotDims.WF S800x384 S384x512 S800x512 [1] [0] [0] [1] [] []
  dot_S800x512_S512x1152_S800x1152_1_0_0_1_n_n_wf : DotDims.WF S800x512 S512x1152 S800x1152 [1] [0] [0] [1] [] []
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x384.size a ≤ S200000x384.size a
  hwx0_0 : ∀ i : grid0.Coords, EltTy.bits .bf16 = 32 ∨ (Rect.block (s := S200000x384) S800x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1152.size a ≤ S512x1152.size a
  hwx0_3 : ∀ i : grid0.Coords, EltTy.bits .bf16 = 32 ∨ (Rect.block (s := S512x1152) S512x1152.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152.size a ≤ S1152.size a
  hwx0_4 : ∀ i : grid0.Coords, EltTy.bits .f32 = 32 ∨ (Rect.block (s := S1152) S1152.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S800x512.size a ≤ S200000x512.size a
  hwx0_5 : ∀ i : grid0.Coords, EltTy.bits .f32 = 32 ∨ (Rect.block (s := S200000x512) S800x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S800x128.size a ≤ S200000x128.size a
  hwx0_6 : ∀ i : grid0.Coords, EltTy.bits .f32 = 32 ∨ (Rect.block (s := S200000x128) S800x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S800x512.size a ≤ S200000x512.size a
  hwx0_7 : ∀ i : grid0.Coords, EltTy.bits .f32 = 32 ∨ (Rect.block (s := S200000x512) S800x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S800x384_S384x512_S800x512_1_0_0_1_n_n : DotDims S800x384 S384x512 S800x512 where
  lhsContracting := [1]
  rhsContracting := [0]
  lhsNonContracting := [0]
  rhsNonContracting := [1]
  lhsBatch := []
  rhsBatch := []
  wf := dot_S800x384_S384x512_S800x512_1_0_0_1_n_n_wf
def dot_S800x512_S512x1152_S800x1152_1_0_0_1_n_n : DotDims S800x512 S512x1152 S800x1152 where
  lhsContracting := [1]
  rhsContracting := [0]
  lhsNonContracting := [0]
  rhsNonContracting := [1]
  lhsBatch := []
  rhsBatch := []
  wf := dot_S800x512_S512x1152_S800x1152_1_0_0_1_n_n_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v20) S800x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1152.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S800x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S800x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_2) S800x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v38) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x512 : Shape := ⟨2, ![200000, 512]⟩
abbrev S1x512 : Shape := ⟨2, ![1, 512]⟩
abbrev S200000x1152 : Shape := ⟨2, ![200000, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x128, .f32⟩
  | .hbm, ⟨33, _⟩ => ⟨S200000x384, .f32⟩
  | .hbm, ⟨34, _⟩ => ⟨S200000x512, .f32⟩
  | .hbm, ⟨35, _⟩ => ⟨S1x512, .f32⟩
  | .hbm, ⟨36, _⟩ => ⟨S200000x512, .f32⟩
  | .hbm, ⟨37, _⟩ => ⟨S200000x512, .f32⟩
  | .hbm, ⟨38, _⟩ => ⟨S_, .f32⟩
  | .hbm, ⟨39, _⟩ => ⟨S200000x512, .f32⟩
  | .hbm, ⟨40, _⟩ => ⟨S200000x512, .f32⟩
  | .hbm, ⟨41, _⟩ => ⟨S200000x1152, .f32⟩
  | .hbm, ⟨42, _⟩ => ⟨S1x1152, .f32⟩
  | .hbm, ⟨43, _⟩ => ⟨S200000x1152, .f32⟩
  | .hbm, ⟨44, _⟩ => ⟨S200000x1152, .f32⟩
  | .hbm, ⟨45, _⟩ => ⟨S_, .f32⟩
  | .hbm, ⟨46, _⟩ => ⟨S200000x1152, .f32⟩
  | .hbm, ⟨47, _⟩ => ⟨S200000x1152, .f32⟩
  | .hbm, ⟨48, _⟩ => ⟨S200000x512, .f32⟩
  | .hbm, ⟨49, _⟩ => ⟨S200000x128, .f32⟩
  | .hbm, ⟨50, _⟩ => ⟨S200000x512, .f32⟩
  | .hbm, ⟨51, _⟩ => ⟨S_, .f32⟩
  | .hbm, ⟨52, _⟩ => ⟨S50000x512, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S50000x512, .f32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S50000x512, .f32⟩
  | .hbm, ⟨71, _⟩ => ⟨S_, .f32⟩
  | .hbm, ⟨72, _⟩ => ⟨S200000, .f32⟩
  | .hbm, ⟨73, _⟩ => ⟨S_, .f32⟩
  | .hbm, ⟨74, _⟩ => ⟨S50000, .f32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S50000, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S50000, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S50000x1, .f32⟩
  | .hbm, ⟨102, _⟩ => ⟨S50000x512, .f32⟩
  | .hbm, ⟨103, _⟩ => ⟨S50000x512, .f32⟩
  | .hbm, ⟨104, _⟩ => ⟨S50000x512, .f32⟩
  | .hbm, ⟨105, _⟩ => ⟨S1x512, .f32⟩
  | .hbm, ⟨106, _⟩ => ⟨S50000x512, .f32⟩
  | .hbm, ⟨107, _⟩ => ⟨S50000x512, .f32⟩
  | .hbm, ⟨108, _⟩ => ⟨S_, .f32⟩
  | .hbm, ⟨109, _⟩ => ⟨S50000x512, .f32⟩
  | .hbm, ⟨110, _⟩ => ⟨S50000x512, .f32⟩
  | .hbm, ⟨111, _⟩ => ⟨S50000x128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_cst : Ref sig .tc := ⟨.hbm, 108, rfl⟩
abbrev main_call3_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call4_cst : Ref sig .tc := ⟨.hbm, 115, rfl⟩
abbrev main_call4_v0 : Ref sig .tc := ⟨.hbm, 116, rfl⟩
abbrev main_v76 : Ref sig .tc := ⟨.hbm, 117, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1152_S1x1152_1 : S1152.BroadcastsInDim S1x1152 (![1] : Fin 1 → Fin S1x1152.rank)
  bcast_S1x1152_S200000x1152_0_1 : S1x1152.BroadcastsInDim S200000x1152 (![0, 1] : Fin 2 → Fin S200000x1152.rank)
  bcast_S_S200000x1152 : S_.BroadcastsInDim S200000x1152 (![] : Fin 0 → Fin S200000x1152.rank)
  slices_S200000x1152_S200000x512_0_0 : S200000x1152.Slices ![0, 0] S200000x512
  slices_S200000x1152_S200000x128_0_512 : S200000x1152.Slices ![0, 512] S200000x128
  slices_S200000x1152_S200000x512_0_640 : S200000x1152.Slices ![0, 640] S200000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S200000x1_S200000x128_1_0_n_n_0_1_1128_wf : GatherDims.WF S50000x128 S200000x1 S200000x128 [1] [0] [] [0] [] 1 ![1, 128]
  dot_S200000x384_S384x512_S200000x512_1_0_0_1_n_n_wf : DotDims.WF S200000x384 S384x512 S200000x512 [1] [0] [0] [1] [] []
  dot_S200000x512_S512x1152_S200000x1152_1_0_0_1_n_n_wf : DotDims.WF S200000x512 S512x1152 S200000x1152 [1] [0] [0] [1] [] []
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x512_S200000x512_1_0_0_1_n_n : DotDims S200000x384 S384x512 S200000x512 where
  lhsContracting := [1]
  rhsContracting := [0]
  lhsNonContracting := [0]
  rhsNonContracting := [1]
  lhsBatch := []
  rhsBatch := []
  wf := dot_S200000x384_S384x512_S200000x512_1_0_0_1_n_n_wf
def dot_S200000x512_S512x1152_S200000x1152_1_0_0_1_n_n : DotDims S200000x512 S512x1152 S200000x1152 where
  lhsContracting := [1]
  rhsContracting := [0]
  lhsNonContracting := [0]
  rhsNonContracting := [1]
  lhsBatch := []
  rhsBatch := []
  wf := dot_S200000x512_S512x1152_S200000x1152_1_0_0_1_n_n_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KIBody0.lean ====
/-
  Region 0 (the first pallas_call: net1 on 250 blocks of 800 triples) at the contents `V` it is entered from.

  At a grid point `t` the body finds, in the current staging buffer of each of its five input windows, the
  window's block of the array as the region found it (`iblk0`: 800 rows of the gathered triples, and the two
  weight matrices and two bias vectors whole), and leaves in the staging buffer of each of its three output
  windows one whole-block store: the column ranges [0, 512), [512, 640) and [640, 1152) of the 800 × 1152
  activations computed from those five blocks (`out0_5`, `out0_6`, `out0_7`). The inputs' buffers are left
  as found. This is what the pipeline's proof data (`dat0`) records, and the body obligation the launch asks for.
-/
import proofs.«180546_j3530463117740_1_alg».proof.Proof.Gen.KernelIdeal.Launch
import proofs.«180546_j3530463117740_1_alg».proof.Proof.Gen.KernelIdeal.Skeleton
import proofs.«180546_j3530463117740_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not (a window whose block index did not move still holds the block of the point before, which is this point's). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S800x384 := Rect.unit (s := S800x384) ![0, 0] S800x384.size inb_S800x384_S800x384_0_0
abbrev r0_wa : Rect S384x512 := Rect.unit (s := S384x512) ![0, 0] S384x512.size inb_S384x512_S384x512_0_0
abbrev r0_ba : Rect S512 := Rect.unit (s := S512) ![0] S512.size inb_S512_S512_0
abbrev r0_wb : Rect S512x1152 := Rect.unit (s := S512x1152) ![0, 0] S512x1152.size inb_S512x1152_S512x1152_0_0
abbrev r0_bb : Rect S1152 := Rect.unit (s := S1152) ![0] S1152.size inb_S1152_S1152_0
abbrev r0_o512 : Rect S800x512 := Rect.unit (s := S800x512) ![0, 0] S800x512.size inb_S800x512_S800x512_0_0
abbrev r0_o128 : Rect S800x128 := Rect.unit (s := S800x128) ![0, 0] S800x128.size inb_S800x128_S800x128_0_0

/-! ## What the body leaves in each output window's buffer -/

/-- The new subject vectors' buffer after the body: one whole-block store of columns [0, 512) of the activations. -/
def out0_5 (x0 : Vec F S800x384 .bf16) (x1 : Vec F S384x512 .bf16) (x2 : Vec F S512 .f32) (x3 : Vec F S512x1152 .bf16) (x4 : Vec F S1152 .f32) : Vec F S800x512 .f32 :=
  View.canon [⟨r0_o512, k0_pay2 (View.ld x0 r0_x) (View.ld x1 r0_wa) (View.ld x2 r0_ba) (View.ld x3 r0_wb) (View.ld x4 r0_bb)⟩]
/-- The new predicate vectors' buffer after the body: columns [512, 640). -/
def out0_6 (x0 : Vec F S800x384 .bf16) (x1 : Vec F S384x512 .bf16) (x2 : Vec F S512 .f32) (x3 : Vec F S512x1152 .bf16) (x4 : Vec F S1152 .f32) : Vec F S800x128 .f32 :=
  View.canon [⟨r0_o128, k0_pay3 (View.ld x0 r0_x) (View.ld x1 r0_wa) (View.ld x2 r0_ba) (View.ld x3 r0_wb) (View.ld x4 r0_bb)⟩]
/-- The new object vectors' buffer after the body: columns [640, 1152). -/
def out0_7 (x0 : Vec F S800x384 .bf16) (x1 : Vec F S384x512 .bf16) (x2 : Vec F S512 .f32) (x3 : Vec F S512x1152 .bf16) (x4 : Vec F S1152 .f32) : Vec F S800x512 .f32 :=
  View.canon [⟨r0_o512, k0_pay4 (View.ld x0 r0_x) (View.ld x1 r0_wa) (View.ld x2 r0_ba) (View.ld x3 r0_wb) (View.ld x4 r0_bb)⟩]

/-- A whole-block store covers its buffer. -/
theorem cover0_512 (p0 : Vec F S800x512 .f32) (y : S800x512.Idx) :
    ∃ pc ∈ ([⟨r0_o512, p0⟩] : List (View.Piece (Elt F) S800x512 .f32)), y ∈ pc.1.set :=
  View.cover_of_tiled [⟨r0_o512, p0⟩] S800x512.size (by rfl) y
theorem cover0_128 (p0 : Vec F S800x128 .f32) (y : S800x128.Idx) :
    ∃ pc ∈ ([⟨r0_o128, p0⟩] : List (View.Piece (Elt F) S800x128 .f32)), y ∈ pc.1.set :=
  View.cover_of_tiled [⟨r0_o128, p0⟩] S800x128.size (by rfl) y

/-! ## The body's triple -/

set_option maxHeartbeats 1000000 in
/-- The kernel body on whole staging memrefs, the inputs' at read contents `x0 … x4` and the outputs' at anything,
    runs to the continuation holding the inputs' as they were and each output's at its `out0_W` of the inputs'. -/
theorem sound_kernel0 (c : Dev nD) (E : Set ℕ) (i : grid0.Coords)
    (arg1 : Memref sig .tc .vmem S800x384 .bf16) (harg1 : arg1.IsWhole) (arg2 : Memref sig .tc .vmem S384x512 .bf16) (harg2 : arg2.IsWhole)
    (arg3 : Memref sig .tc .vmem S512 .f32) (harg3 : arg3.IsWhole) (arg4 : Memref sig .tc .vmem S512x1152 .bf16) (harg4 : arg4.IsWhole)
    (arg5 : Memref sig .tc .vmem S1152 .f32) (harg5 : arg5.IsWhole) (arg6 : Memref sig .tc .vmem S800x512 .f32) (harg6 : arg6.IsWhole)
    (arg7 : Memref sig .tc .vmem S800x128 .f32) (harg7 : arg7.IsWhole) (arg8 : Memref sig .tc .vmem S800x512 .f32) (harg8 : arg8.IsWhole)
    (x0 : Vec F S800x384 .bf16) (x1 : Vec F S384x512 .bf16) (x2 : Vec F S512 .f32) (x3 : Vec F S512x1152 .bf16) (x4 : Vec F S1152 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)
            ∗ owns (c : Thread nD τ) arg8 fullShare (out0_7 x0 x1 x2 x3 x4)) -∗ K ⟨⟩))
      ⊢ wp frame (wpE (defs₀ (F := F)) Variants.none c none) E (cc0__net1_kernel i arg1 harg1 arg2 harg2 arg3 harg3 arg4 harg4 arg5 harg5 arg6 harg6 arg7 harg7 arg8 harg8) K := by
  simp only [cc0__net1_kernel_eq_skeleton]; unfold cc0__net1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_512 _)
  isplitl [H6]
  · iexists _; isplitr
    swap; · iexact H6
    ipureintro
    exact View.read_writes_eq_canon _ _ _ (cover0_128 _)
  iexists _; isplitr
  swap; · iexact H7
  ipureintro
  exact View.read_writes_eq_canon _ _ _ (cover0_512 _)

/-! ## The pipeline's proof data -/

/-- The proof data of pipeline 0 on core `c`: the arrays as the region finds them; after the body at point `t` each
    input's buffer at its block and each output's at its `out0_W` of the five input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Region 1 (the second pallas_call: the mean pool and net2 on 25 blocks of 2000 objects) at the contents `V` it is
  entered from.

  At a grid point `t` the body finds, in the current staging buffers of its six input windows, 2000 rows of the
  pooled sums and of the contribution counts, and the two weight matrices and two bias vectors whole (`iblk1`),
  and leaves in the output window's staging buffer one whole-block store: the 2000 × 128 result computed from
  those six blocks (`out1_6`). The inputs' buffers are left as found.
-/
import proofs.«180546_j3530463117740_1_alg».proof.Proof.Gen.KernelIdeal.Launch
import proofs.«180546_j3530463117740_1_alg».proof.Proof.Gen.KernelIdeal.Skeleton
import proofs.«180546_j3530463117740_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    not (a window whose block index did not move still holds the block of the point before, which is this point's). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_p : Rect S2000x512 := Rect.unit (s := S2000x512) ![0, 0] S2000x512.size inb_S2000x512_S2000x512_0_0
abbrev r1_c : Rect S2000x1 := Rect.unit (s := S2000x1) ![0, 0] S2000x1.size inb_S2000x1_S2000x1_0_0
abbrev r1_wa : Rect S512x512 := Rect.unit (s := S512x512) ![0, 0] S512x512.size inb_S512x512_S512x512_0_0
abbrev r1_ba : Rect S512 := Rect.unit (s := S512) ![0] S512.size inb_S512_S512_0
abbrev r1_wb : Rect S512x128 := Rect.unit (s := S512x128) ![0, 0] S512x128.size inb_S512x128_S512x128_0_0
abbrev r1_bb : Rect S128 := Rect.unit (s := S128) ![0] S128.size inb_S128_S128_0
abbrev r1_o : Rect S2000x128 := Rect.unit (s := S2000x128) ![0, 0] S2000x128.size inb_S2000x128_S2000x128_0_0

/-! ## What the body leaves in the output window's buffer -/

/-- The result block after the body: one whole-block store of net2's output on the block's 2000 rows. -/
def out1_6 (x0 : Vec F S2000x512 .f32) (x1 : Vec F S2000x1 .f32) (x2 : Vec F S512x512 .bf16) (x3 : Vec F S512 .f32) (x4 : Vec F S512x128 .bf16) (x5 : Vec F S128 .f32) : Vec F S2000x128 .f32 :=
  View.canon [⟨r1_o, k1_pay1 (View.ld x1 r1_c) (View.ld x0 r1_p) (View.ld x2 r1_wa) (View.ld x3 r1_ba) (View.ld x4 r1_wb) (View.ld x5 r1_bb)⟩]

/-- A whole-block store covers its buffer. -/
theorem cover1_6 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 1000000 in
/-- The kernel body on whole staging memrefs, the inputs' at read contents `x0 … x5` and the output's at anything,
    runs to the continuation holding the inputs' as they were and the output's at `out1_6` of the inputs'. -/
theorem sound_kernel1 (c : Dev nD) (E : Set ℕ) (i : grid1.Coords)
    (arg1 : Memref sig .tc .vmem S2000x512 .f32) (harg1 : arg1.IsWhole) (arg2 : Memref sig .tc .vmem S2000x1 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S512x128 .bf16) (harg5 : arg5.IsWhole) (arg6 : Memref sig .tc .vmem S128 .f32) (harg6 : arg6.IsWhole)
    (arg7 : Memref sig .tc .vmem S2000x128 .f32) (harg7 : arg7.IsWhole)
    (x0 : Vec F S2000x512 .f32) (x1 : Vec F S2000x1 .f32) (x2 : Vec F S512x512 .bf16) (x3 : Vec F S512 .f32) (x4 : Vec F S512x128 .bf16) (x5 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__net2_kernel i arg1 harg1 arg2 harg2 arg3 harg3 arg4 harg4 arg5 harg5 arg6 harg6 arg7 harg7) K := by
  simp only [cc1__net2_kernel_eq_skeleton]; unfold cc1__net2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at `out1_6` of the six input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of @main: two stretches of host operations and the two pallas_calls between and after them.

  Between two items every unscoped buffer of a core is held at a valuation that is folded from the launch memory:
  `W0` the launch contents, `W1` after the first host stretch (index extraction, the gathers, the concatenation,
  the bf16 casts), `W2` after region 0 (its output arrays at what the 250 write-backs leave, every other buffer
  as entered), `W3` after the second host stretch (the scatter-adds and the counts), `W4` after region 1. Each
  region's proof data is taken at its entry valuation. The run theorem `run_all` says that every weakly fair
  execution terminates with every unscoped buffer at `W4`; the arguments read back to the launch memory
  (`W4_main_argK`) and the two results to the regions' output arrays (`W4_main_v58`, `W4_main_v23_1`).
-/
import proofs.«180546_j3530463117740_1_alg».proof.Proof.KIBody0
import proofs.«180546_j3530463117740_1_alg».proof.Proof.KIBody1
import proofs.«180546_j3530463117740_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A buffer no host operation writes passes through a host stretch -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers at entry and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers at entry and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters, every weakly fair execution of @main on the TensorCore terminates,
    nothing faulting, and in every final state each unscoped buffer holds the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_of_ne m ρ c main_arg5 (by decide)).trans <| (W1_of m ρ c main_arg5 (by decide)).trans rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <|
    (W2_of_ne m ρ c main_arg7 (by decide)).trans <| (W1_of m ρ c main_arg7 (by decide)).trans rfl
theorem W4_main_arg9 (c : Dev nD) : W4 m ρ c (Proc.devRef .tc main_arg9) = m ((c : Thread nD τ).loc main_arg9) :=
  (W4_of_ne m ρ c main_arg9 (by decide)).trans <| (W3_of m ρ c main_arg9 (by decide)).trans <|
    (W2_of_ne m ρ c main_arg9 (by decide)).trans <| (W1_of m ρ c main_arg9 (by decide)).trans rfl
/-- The first bias vector is region 0's input window 2: an input's array is left as entered. -/
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    ((W2_arr m ρ c 2).trans (((dat0 (V1 m ρ) c).arrAt_in 2 rfl _).trans (A_eq0 (V1 m ρ) c 2))).trans <| (W1_of m ρ c main_arg4 (by decide)).trans rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    ((W2_arr m ρ c 4).trans (((dat0 (V1 m ρ) c).arrAt_in 4 rfl _).trans (A_eq0 (V1 m ρ) c 4))).trans <| (W1_of m ρ c main_arg6 (by decide)).trans rfl
/-- The third and fourth bias vectors are region 1's input windows 3 and 5. -/
theorem W4_main_arg8 (c : Dev nD) : W4 m ρ c (Proc.devRef .tc main_arg8) = m ((c : Thread nD τ).loc main_arg8) :=
  ((W4_arr m ρ c 3).trans (((dat1 (V3 m ρ) c).arrAt_in 3 rfl _).trans (A_eq1 (V3 m ρ) c 3))).trans <| (W3_of m ρ c main_arg8 (by decide)).trans <|
    (W2_of_ne m ρ c main_arg8 (by decide)).trans <| (W1_of m ρ c main_arg8 (by decide)).trans rfl
theorem W4_main_arg10 (c : Dev nD) : W4 m ρ c (Proc.devRef .tc main_arg10) = m ((c : Thread nD τ).loc main_arg10) :=
  ((W4_arr m ρ c 5).trans (((dat1 (V3 m ρ) c).arrAt_in 5 rfl _).trans (A_eq1 (V3 m ρ) c 5))).trans <| (W3_of m ρ c main_arg10 (by decide)).trans <|
    (W2_of_ne m ρ c main_arg10 (by decide)).trans <| (W1_of m ρ c main_arg10 (by decide)).trans rfl

/-! ## The two results -/

/-- The first result is region 1's output array. -/
theorem W4_main_v58 (c : Dev nD) : W4 m ρ c (Proc.devRef .tc main_v58) = (dat1 (V3 m ρ) c).arrAt 6 cfg1.N :=
  W4_arr m ρ c 6
/-- The second result is region 0's middle output array: nothing after region 0 writes it. -/
theorem W4_main_v23_1 (c : Dev nD) : W4 m ρ c (Proc.devRef .tc main_v23_1) = (dat0 (V1 m ρ) c).arrAt 6 cfg0.N :=
  (W4_of_ne m ρ c main_v23_1 (by decide)).trans <| (W3_of m ρ c main_v23_1 (by decide)).trans <| W2_arr m ρ c 6

end Cert.KernelIdeal.Hand

end
-- ==== Proof.Spec.lean ====
/-
  The two MLPs of the triple convolution as index-by-index formulas on the extended reals.

  net1 acts row by row on the gathered triples `X : [200000, 384]`:
    `hid1 r k  = max (Σ_l X r l · W1a l k + b1a k) 0`,
    `newT r j  = max (Σ_k hid1 r k · W1b k j + b1b j) 0`   (j < 1152),
  and its three column ranges are the new subject vectors (columns 0 … 511), the new predicate vectors
  (columns 512 … 639) and the new object vectors (columns 640 … 1151).

  net2 acts row by row on the pooled sums `P : [50000, 512]` and the contribution counts `C : [50000, 1]`:
    `avg r l   = P r l / min 50000 (max 1 (C r 0))`,
    `hid2 r k  = max (Σ_l avg r l · W2a l k + b2a k) 0`,
    `newObj r j = max (Σ_k hid2 r k · W2b k j + b2b j) 0`  (j < 128).

  The float literals stay as their words (the zero of the ReLUs, 1.0 and 50000.0 of the clip): the same word
  stands on both sides of every equation they occur in, so none is ever evaluated.
-/
import Idealize.ShloMosaic.PureOps.Ideal
import Idealize.ShloMosaic.Lib.ValueIdx

noncomputable section

namespace Cert.TripleConv

open Idealize.ShloMosaic Idealize.ShloMosaic.ValueIdx

/-- The ReLU's zero, as the word both programs print. -/
abbrev zeroW : EReal := Ideal.ofBits .f32 0x00000000#32
/-- The clip's lower bound `1.0`. -/
abbrev oneW : EReal := Ideal.ofBits .f32 0x3F800000#32
/-- The clip's upper bound `50000.0`. -/
abbrev capW : EReal := Ideal.ofBits .f32 0x47435000#32

/-! ## net1, on 200000 rows -/

/-- The hidden layer of net1 at row `r`, unit `k`. -/
def hid1 (X : (⟨2, ![200000, 384]⟩ : Shape).Idx → EReal) (W1a : (⟨2, ![384, 512]⟩ : Shape).Idx → EReal)
    (b1a : (⟨1, ![512]⟩ : Shape).Idx → EReal) (r : Fin 200000) (k : Fin 512) : EReal :=
  max ((∑ l : Fin 384, X (ix2 r l) * W1a (ix2 l k)) + b1a (ix1 k)) zeroW

/-- net1's output at row `r`, column `j` of its 1152. -/
def newT (X : (⟨2, ![200000, 384]⟩ : Shape).Idx → EReal) (W1a : (⟨2, ![384, 512]⟩ : Shape).Idx → EReal)
    (b1a : (⟨1, ![512]⟩ : Shape).Idx → EReal) (W1b : (⟨2, ![512, 1152]⟩ : Shape).Idx → EReal)
    (b1b : (⟨1, ![1152]⟩ : Shape).Idx → EReal) (r : Fin 200000) (j : Fin 1152) : EReal :=
  max ((∑ k : Fin 512, hid1 X W1a b1a r k * W1b (ix2 k j)) + b1b (ix1 j)) zeroW

/-- The new subject vectors: columns 0 … 511 of net1's output. -/
def newS (X : (⟨2, ![200000, 384]⟩ : Shape).Idx → EReal) (W1a : (⟨2, ![384, 512]⟩ : Shape).Idx → EReal)
    (b1a : (⟨1, ![512]⟩ : Shape).Idx → EReal) (W1b : (⟨2, ![512, 1152]⟩ : Shape).Idx → EReal)
    (b1b : (⟨1, ![1152]⟩ : Shape).Idx → EReal) : (⟨2, ![200000, 512]⟩ : Shape).Idx → EReal :=
  fun i => newT X W1a b1a W1b b1b (i 0) ⟨(i 1).val, by have := (i 1).isLt; show (i 1).val < 1152; have h : (i 1).val < 512 := (i 1).isLt; omega⟩

/-- The new predicate vectors: columns 512 … 639. -/
def newP (X : (⟨2, ![200000, 384]⟩ : Shape).Idx → EReal) (W1a : (⟨2, ![384, 512]⟩ : Shape).Idx → EReal)
    (b1a : (⟨1, ![512]⟩ : Shape).Idx → EReal) (W1b : (⟨2, ![512, 1152]⟩ : Shape).Idx → EReal)
    (b1b : (⟨1, ![1152]⟩ : Shape).Idx → EReal) : (⟨2, ![200000, 128]⟩ : Shape).Idx → EReal :=
  fun i => newT X W1a b1a W1b b1b (i 0) ⟨512 + (i 1).val, by have h : (i 1).val < 128 := (i 1).isLt; omega⟩

/-- The new object vectors: columns 640 … 1151. -/
def newO (X : (⟨2, ![200000, 384]⟩ : Shape).Idx → EReal) (W1a : (⟨2, ![384, 512]⟩ : Shape).Idx → EReal)
    (b1a : (⟨1, ![512]⟩ : Shape).Idx → EReal) (W1b : (⟨2, ![512, 1152]⟩ : Shape).Idx → EReal)
    (b1b : (⟨1, ![1152]⟩ : Shape).Idx → EReal) : (⟨2, ![200000, 512]⟩ : Shape).Idx → EReal :=
  fun i => newT X W1a b1a W1b b1b (i 0) ⟨640 + (i 1).val, by have h : (i 1).val < 512 := (i 1).isLt; omega⟩

/-! ## net2, on 50000 rows -/

/-- The mean pool: row `r` of the pooled sums over its clipped count. -/
def avg (P : (⟨2, ![50000, 512]⟩ : Shape).Idx → EReal) (C : (⟨2, ![50000, 1]⟩ : Shape).Idx → EReal)
    (r : Fin 50000) (l : Fin 512) : EReal :=
  Ideal.div (P (ix2 r l)) (min capW (max oneW (C (ix2 r (0 : Fin 1)))))

/-- The hidden layer of net2 at row `r`, unit `k`. -/
def hid2 (P : (⟨2, ![50000, 512]⟩ : Shape).Idx → EReal) (C : (⟨2, ![50000, 1]⟩ : Shape).Idx → EReal)
    (W2a : (⟨2, ![512, 512]⟩ : Shape).Idx → EReal) (b2a : (⟨1, ![512]⟩ : Shape).Idx → EReal)
    (r : Fin 50000) (k : Fin 512) : EReal :=
  max ((∑ l : Fin 512, avg P C r l * W2a (ix2 l k)) + b2a (ix1 k)) zeroW

/-- net2's output: the new object vectors of the layer. -/
def newObj (P : (⟨2, ![50000, 512]⟩ : Shape).Idx → EReal) (C : (⟨2, ![50000, 1]⟩ : Shape).Idx → EReal)
    (W2a : (⟨2, ![512, 512]⟩ : Shape).Idx → EReal) (b2a : (⟨1, ![512]⟩ : Shape).Idx → EReal)
    (W2b : (⟨2, ![512, 128]⟩ : Shape).Idx → EReal) (b2b : (⟨1, ![128]⟩ : Shape).Idx → EReal) :
    (⟨2, ![50000, 128]⟩ : Shape).Idx → EReal :=
  fun i => max ((∑ k : Fin 512, hid2 P C W2a b2a (i 0) k * W2b (ix2 k (i 1))) + b2b (ix1 (i 1))) zeroW

end Cert.TripleConv

end
-- ==== Proof.KIValue0.lean ====
/-
  Region 0 (net1 on 250 blocks of 800 gathered triples) read as values: after the region, the three output arrays
  hold the new subject, predicate and object vectors of the arrays the region was entered from.

  The body's 800 × 1152 activations at row `p`, column `q` are
    `max (Σ_k max (Σ_l x0 p l · x1 l k + x2 k) 0 · x3 k q + x4 q) 0`
  of the five blocks it reads (each block product into a zero accumulator is the plain sum over the contraction
  index; a bias is one row spread over the 800; the change of float format is the identity on the extended
  reals). At point `t` the triples' block is rows `800 t … 800 t + 799` of the gathered triples and the four other
  windows hold their arrays whole, so row `p` of the activations is net1's output at row `800 t + p`; the three
  stores cut its columns [0, 512), [512, 640) and [640, 1152). Every point writes its blocks back, and row `r` of
  an output array lies in the block of point `r / 800`: the blocks tile the arrays.
-/
import proofs.«180546_j3530463117740_1_alg».proof.Proof.KIBody0
import proofs.«180546_j3530463117740_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand0

open Cert.KernelIdeal Cert.KernelIdeal.Gen Cert.KernelIdeal.Hand
open Idealize.ShloMosaic.Pipeline (Dat)
open Idealize.ShloMosaic Idealize.ShloMosaic.TcCoe Idealize.ShloMosaic.ValueIdx
open Idealize.SL.Sem
open Cert.TripleConv (zeroW hid1 newT newS newP newO)

/-! ## The two block products at an index -/

theorem lhs_mm1_0 (i : S800x512.Idx) (q : dot_S800x384_S384x512_S800x512_1_0_0_1_n_n.contr.Idx) :
    (dot_S800x384_S384x512_S800x512_1_0_0_1_n_n.lhsIdx i q 0).val = (i 0).val := by
  unfold DotDims.lhsIdx
  rw [dif_neg (show ¬(0 : Fin S800x384.rank) ∈ dot_S800x384_S384x512_S800x512_1_0_0_1_n_n.lhsBatch by decide), dif_pos (show (0 : Fin S800x384.rank) ∈ dot_S800x384_S384x512_S800x512_1_0_0_1_n_n.lhsNonContracting by decide)]
  rfl
theorem lhs_mm1_1 (i : S800x512.Idx) (q : dot_S800x384_S384x512_S800x512_1_0_0_1_n_n.contr.Idx) :
    (dot_S800x384_S384x512_S800x512_1_0_0_1_n_n.lhsIdx i q 1).val = (q ⟨0, by decide⟩).val :=
  dot_S800x384_S384x512_S800x512_1_0_0_1_n_n.lhsIdx_val_of_single rfl i q
theorem rhs_mm1_0 (i : S800x512.Idx) (q : dot_S800x384_S384x512_S800x512_1_0_0_1_n_n.contr.Idx) :
    (dot_S800x384_S384x512_S800x512_1_0_0_1_n_n.rhsIdx i q 0).val = (q ⟨0, by decide⟩).val :=
  dot_S800x384_S384x512_S800x512_1_0_0_1_n_n.rhsIdx_val_of_single rfl i q
theorem rhs_mm1_1 (i : S800x512.Idx) (q : dot_S800x384_S384x512_S800x512_1_0_0_1_n_n.contr.Idx) :
    (dot_S800x384_S384x512_S800x512_1_0_0_1_n_n.rhsIdx i q 1).val = (i 1).val := by
  unfold DotDims.rhsIdx
  rw [dif_neg (show ¬(1 : Fin S384x512.rank) ∈ dot_S800x384_S384x512_S800x512_1_0_0_1_n_n.rhsBatch by decide), dif_pos (show (1 : Fin S384x512.rank) ∈ dot_S800x384_S384x512_S800x512_1_0_0_1_n_n.rhsNonContracting by decide)]
  rfl

/-- The first block product into the zero accumulator, at row `p` and unit `k`: the sum over the 384 input
    features of the row's entry times the weight's. -/
theorem mm1_apply (a : FVec Ideal S800x384 .bf16) (b : FVec Ideal S384x512 .bf16) (p : Fin 800) (k : Fin 512) :
    matmul dot_S800x384_S384x512_S800x512_1_0_0_1_n_n none a b (constant S800x512 .f32 0x00000000#32) (ix2 p k)
      = ∑ l : Fin 384, a (ix2 p l) * b (ix2 l k) := by
  simp only [matmul]
  rw [Ideal.matmul_constant_zero_apply, ← Equiv.sum_comp (ValueIdx.contrEquiv1 dot_S800x384_S384x512_S800x512_1_0_0_1_n_n 384 rfl rfl).symm]
  refine Finset.sum_congr rfl fun l _ => ?_
  have hl := ValueIdx.contrEquiv1_symm_val dot_S800x384_S384x512_S800x512_1_0_0_1_n_n 384 rfl rfl l
  have el : dot_S800x384_S384x512_S800x512_1_0_0_1_n_n.lhsIdx (ix2 p k) ((ValueIdx.contrEquiv1 dot_S800x384_S384x512_S800x512_1_0_0_1_n_n 384 rfl rfl).symm l) = ix2 p l := funext fun a => Fin.ext (by
    match a with
    | ⟨0, _⟩ => exact lhs_mm1_0 _ _
    | ⟨1, _⟩ => exact (lhs_mm1_1 _ _).trans hl)
  have er : dot_S800x384_S384x512_S800x512_1_0_0_1_n_n.rhsIdx (ix2 p k) ((ValueIdx.contrEquiv1 dot_S800x384_S384x512_S800x512_1_0_0_1_n_n 384 rfl rfl).symm l) = ix2 l k := funext fun a => Fin.ext (by
    match a with
    | ⟨0, _⟩ => exact (rhs_mm1_0 _ _).trans hl
    | ⟨1, _⟩ => exact rhs_mm1_1 _ _)
  rw [el, er]

theorem lhs_mm2_0 (i : S800x1152.Idx) (q : dot_S800x512_S512x1152_S800x1152_1_0_0_1_n_n.contr.Idx) :
    (dot_S800x512_S512x1152_S800x1152_1_0_0_1_n_n.lhsIdx i q 0).val = (i 0).val := by
  unfold DotDims.lhsIdx
  rw [dif_neg (show ¬(0 : Fin S800x512.rank) ∈ dot_S800x512_S512x1152_S800x1152_1_0_0_1_n_n.lhsBatch by decide), dif_pos (show (0 : Fin S800x512.rank) ∈ dot_S800x512_S512x1152_S800x1152_1_0_0_1_n_n.lhsNonContracting by decide)]
  rfl
theorem lhs_mm2_1 (i : S800x1152.Idx) (q : dot_S800x512_S512x1152_S800x1152_1_0_0_1_n_n.contr.Idx) :
    (dot_S800x512_S512x1152_S800x1152_1_0_0_1_n_n.lhsIdx i q 1).val = (q ⟨0, by decide⟩).val :=
  dot_S800x512_S512x1152_S800x1152_1_0_0_1_n_n.lhsIdx_val_of_single rfl i q
theorem rhs_mm2_0 (i : S800x1152.Idx) (q : dot_S800x512_S512x1152_S800x1152_1_0_0_1_n_n.contr.Idx) :
    (dot_S800x512_S512x1152_S800x1152_1_0_0_1_n_n.rhsIdx i q 0).val = (q ⟨0, by decide⟩).val :=
  dot_S800x512_S512x1152_S800x1152_1_0_0_1_n_n.rhsIdx_val_of_single rfl i q
theorem rhs_mm2_1 (i : S800x1152.Idx) (q : dot_S800x512_S512x1152_S800x1152_1_0_0_1_n_n.contr.Idx) :
    (dot_S800x512_S512x1152_S800x1152_1_0_0_1_n_n.rhsIdx i q 1).val = (i 1).val := by
  unfold DotDims.rhsIdx
  rw [dif_neg (show ¬(1 : Fin S512x1152.rank) ∈ dot_S800x512_S512x1152_S800x1152_1_0_0_1_n_n.rhsBatch by decide), dif_pos (show (1 : Fin S512x1152.rank) ∈ dot_S800x512_S512x1152_S800x1152_1_0_0_1_n_n.rhsNonContracting by decide)]
  rfl

/-- The second block product into the zero accumulator, at row `p` and column `q`: the sum over the 512 hidden
    units of the row's activation times the weight's. -/
theorem mm2_apply (a : FVec Ideal S800x512 .bf16) (b : FVec Ideal S512x1152 .bf16) (p : Fin 800) (q : Fin 1152) :
    matmul dot_S800x512_S512x1152_S800x1152_1_0_0_1_n_n none a b (constant S800x1152 .f32 0x00000000#32) (ix2 p q)
      = ∑ k : Fin 512, a (ix2 p k) * b (ix2 k q) := by
  simp only [matmul]
  rw [Ideal.matmul_constant_zero_apply, ← Equiv.sum_comp (ValueIdx.contrEquiv1 dot_S800x512_S512x1152_S800x1152_1_0_0_1_n_n 512 rfl rfl).symm]
  refine Finset.sum_congr rfl fun k _ => ?_
  have hk := ValueIdx.contrEquiv1_symm_val dot_S800x512_S512x1152_S800x1152_1_0_0_1_n_n 512 rfl rfl k
  have el : dot_S800x512_S512x1152_S800x1152_1_0_0_1_n_n.lhsIdx (ix2 p q) ((ValueIdx.contrEquiv1 dot_S800x512_S512x1152_S800x1152_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S800x512_S512x1152_S800x1152_1_0_0_1_n_n.rhsIdx (ix2 p q) ((ValueIdx.contrEquiv1 dot_S800x512_S512x1152_S800x1152_1_0_0_1_n_n 512 rfl rfl).symm k) = ix2 k q := funext fun a => Fin.ext (by
    match a with
    | ⟨0, _⟩ => exact (rhs_mm2_0 _ _).trans hk
    | ⟨1, _⟩ => exact rhs_mm2_1 _ _)
  rw [el, er]

/-! ## The biases, one row spread over the block's 800 -/

theorem bias1_apply (x2 : FVec Ideal S512 .f32) (p : Fin 800) (k : Fin 512) :
    broadcastTo S800x512 (shapeCast S1x512 x2 shapeCasts_S512_S1x512) broadcasts_S1x512_S800x512 (ix2 p k) = x2 (ix1 k) := by
  rw [broadcastTo_1b_ab_apply, shapeCast_a_1a_apply]

theorem bias2_apply (x4 : FVec Ideal S1152 .f32) (p : Fin 800) (q : Fin 1152) :
    broadcastTo S800x1152 (shapeCast S1x1152 x4 shapeCasts_S1152_S1x1152) broadcasts_S1x1152_S800x1152 (ix2 p q) = x4 (ix1 q) := by
  rw [broadcastTo_1b_ab_apply, shapeCast_a_1a_apply]

/-! ## The block's activations at an index -/

/-- The body's 800 × 1152 activations at row `p`, column `q`: the second layer's ReLU of the hidden row times the
    second weight plus its bias, the hidden row being the first layer's ReLU of the block's row times the first
    weight plus its bias. -/
theorem pay1_apply (x0 : FVec Ideal S800x384 .bf16) (x1 : FVec Ideal S384x512 .bf16) (x2 : FVec Ideal S512 .f32)
    (x3 : FVec Ideal S512x1152 .bf16) (x4 : FVec Ideal S1152 .f32) (p : Fin 800) (q : Fin 1152) :
    k0_pay1 (F := Ideal) x0 x1 x2 x3 x4 (ix2 p q)
      = max ((∑ k : Fin 512, max ((∑ l : Fin 384, x0 (ix2 p l) * x1 (ix2 l k)) + x2 (ix1 k)) zeroW * x3 (ix2 k q)) + x4 (ix1 q)) zeroW := by
  unfold k0_pay1
  simp only [shapeCast_self, maximumf_apply, addf_apply, broadcast_apply, mm2_apply, bias2_apply, truncf_apply, mm1_apply, bias1_apply]
  rfl

/-! ## The three column ranges of a block's activations -/

/-- Columns [0, 512) of the block's activations. -/
theorem pay2_apply (x0 : FVec Ideal S800x384 .bf16) (x1 : FVec Ideal S384x512 .bf16) (x2 : FVec Ideal S512 .f32)
    (x3 : FVec Ideal S512x1152 .bf16) (x4 : FVec Ideal S1152 .f32) (p : Fin 800) (q : Fin 512) (q' : Fin 1152)
    (hq : q'.val = 0 + q.val) :
    k0_pay2 (F := Ideal) x0 x1 x2 x3 x4 (ix2 p q) = k0_pay1 (F := Ideal) x0 x1 x2 x3 x4 (ix2 p q') := by
  unfold k0_pay2
  exact slice2_axis1_apply 0 _ _ p q q' hq

/-- Columns [512, 640). -/
theorem pay3_apply (x0 : FVec Ideal S800x384 .bf16) (x1 : FVec Ideal S384x512 .bf16) (x2 : FVec Ideal S512 .f32)
    (x3 : FVec Ideal S512x1152 .bf16) (x4 : FVec Ideal S1152 .f32) (p : Fin 800) (q : Fin 128) (q' : Fin 1152)
    (hq : q'.val = 512 + q.val) :
    k0_pay3 (F := Ideal) x0 x1 x2 x3 x4 (ix2 p q) = k0_pay1 (F := Ideal) x0 x1 x2 x3 x4 (ix2 p q') := by
  unfold k0_pay3
  exact slice2_axis1_apply 512 _ _ p q q' hq

/-- Columns [640, 1152). -/
theorem pay4_apply (x0 : FVec Ideal S800x384 .bf16) (x1 : FVec Ideal S384x512 .bf16) (x2 : FVec Ideal S512 .f32)
    (x3 : FVec Ideal S512x1152 .bf16) (x4 : FVec Ideal S1152 .f32) (p : Fin 800) (q : Fin 512) (q' : Fin 1152)
    (hq : q'.val = 640 + q.val) :
    k0_pay4 (F := Ideal) x0 x1 x2 x3 x4 (ix2 p q) = k0_pay1 (F := Ideal) x0 x1 x2 x3 x4 (ix2 p q') := by
  unfold k0_pay4
  exact slice2_axis1_apply 640 _ _ p q q' hq

/-! ## A block's row against the whole arrays -/

/-- Row `p` of the activations computed from a block whose row `p` is row `r` of the gathered triples, with the
    weights and biases whole, is net1's output at row `r`. -/
theorem row_eq_newT (X : S200000x384.Idx → EReal) (W1a : S384x512.Idx → EReal) (b1a : S512.Idx → EReal)
    (W1b : S512x1152.Idx → EReal) (b1b : S1152.Idx → EReal)
    (x0 : FVec Ideal S800x384 .bf16) (x1 : FVec Ideal S384x512 .bf16) (x2 : FVec Ideal S512 .f32)
    (x3 : FVec Ideal S512x1152 .bf16) (x4 : FVec Ideal S1152 .f32) (r : Fin 200000) (p : Fin 800)
    (h0 : ∀ l : Fin 384, x0 (ix2 p l) = X (ix2 r l)) (h1 : x1 = W1a) (h2 : x2 = b1a) (h3 : x3 = W1b) (h4 : x4 = b1b)
    (q : Fin 1152) :
    k0_pay1 (F := Ideal) x0 x1 x2 x3 x4 (ix2 p q) = newT X W1a b1a W1b b1b r q := by
  subst h1 h2 h3 h4
  rw [pay1_apply]
  unfold newT hid1
  simp only [h0]

/-! ## The blocks the body reads, against the arrays the region is entered from -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps, decided over the 250 points: the row-blocked windows sit at block (t, 0), the whole-array
    windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the triples' block at point `t` is row `800 t + p` of the gathered triples. -/
theorem iblk0_0_apply (c : Dev nD) (t : Fin cfg0.N) (p : Fin 800) (l : Fin 384) (r : Fin 200000)
    (hr : r.val = t.val * 800 + p.val) :
    (iblk0 V c 0 t : FVec Ideal S800x384 .bf16) (ix2 p l) = (V c main_v20 : S200000x384.Idx → EReal) (ix2 r l) := by
  obtain ⟨e0, e1, -⟩ := idx_facts t
  show (V c main_v20 : S200000x384.Idx → EReal) (((cfg0.win 0).blk t).view.emb (ix2 p l)) = _
  refine congrArg _ (funext fun a => Fin.ext ?_)
  match a with
  | ⟨0, _⟩ => show win0_0.index t (0 : Fin 2) * 800 + 1 * p.val = r.val; omega
  | ⟨1, _⟩ => show win0_0.index t (1 : Fin 2) * 384 + 1 * l.val = l.val; omega

/-- The first weight's window holds the whole array at every point. -/
theorem iblk0_1_eq (c : Dev nD) (t : Fin cfg0.N) :
    (iblk0 V c 1 t : FVec Ideal S384x512 .bf16) = (V c main_v21 : S384x512.Idx → EReal) := by
  obtain ⟨-, -, e0, e1, -⟩ := idx_facts t
  funext y
  show (V c main_v21 : S384x512.Idx → EReal) (((cfg0.win 1).blk t).view.emb y) = _
  refine congrArg _ (funext fun a => Fin.ext ?_)
  match a with
  | ⟨0, _⟩ => show win0_1.index t (0 : Fin 2) * 384 + 1 * (y 0).val = (y 0).val; omega
  | ⟨1, _⟩ => show win0_1.index t (1 : Fin 2) * 512 + 1 * (y 1).val = (y 1).val; omega

/-- The first bias's window holds the whole array at every point. -/
theorem iblk0_2_eq (c : Dev nD) (t : Fin cfg0.N) :
    (iblk0 V c 2 t : FVec Ideal S512 .f32) = (V c main_arg4 : S512.Idx → EReal) := by
  obtain ⟨-, -, -, -, e0, -⟩ := idx_facts t
  funext y
  show (V c main_arg4 : S512.Idx → EReal) (((cfg0.win 2).blk t).view.emb y) = _
  refine congrArg _ (funext fun a => Fin.ext ?_)
  match a with
  | ⟨0, _⟩ => show win0_2.index t (0 : Fin 1) * 512 + 1 * (y 0).val = (y 0).val; omega

/-- The second weight's window holds the whole array at every point. -/
theorem iblk0_3_eq (c : Dev nD) (t : Fin cfg0.N) :
    (iblk0 V c 3 t : FVec Ideal S512x1152 .bf16) = (V c main_v22 : S512x1152.Idx → EReal) := by
  obtain ⟨-, -, -, -, -, e0, e1, -⟩ := idx_facts t
  funext y
  show (V c main_v22 : S512x1152.Idx → EReal) (((cfg0.win 3).blk t).view.emb y) = _
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 1152 + 1 * (y 1).val = (y 1).val; omega

/-- The second bias's window holds the whole array at every point. -/
theorem iblk0_4_eq (c : Dev nD) (t : Fin cfg0.N) :
    (iblk0 V c 4 t : FVec Ideal S1152 .f32) = (V c main_arg6 : S1152.Idx → EReal) := by
  obtain ⟨-, -, -, -, -, -, -, e0, -⟩ := idx_facts t
  funext y
  show (V c main_arg6 : S1152.Idx → EReal) (((cfg0.win 4).blk t).view.emb y) = _
  refine congrArg _ (funext fun a => Fin.ext ?_)
  match a with
  | ⟨0, _⟩ => show win0_4.index t (0 : Fin 1) * 1152 + 1 * (y 0).val = (y 0).val; omega

/-! ## What each point writes back, the cover, and the arrays after the region -/

/-- Point `t` writes back, into window 5, block `t` of the new subject vectors of the arrays the region is entered from:
    the block's row `p` is row `800 t + p`, its column `q` is column `0 + q` of net1's output. -/
theorem flushed5_eq (c : Dev nD) (t : Fin cfg0.N) :
    (dat0 (F := Ideal) V c).flushed 5 t = ((cfg0.win 5).blk t).view.read (Elt Ideal)
      (newS (V c main_v20) (V c main_v21) (V c main_arg4) (V c main_v22) (V c main_arg6)) := by
  show (cfg0.win 5).cut (grid0.coords t) ((dat0 V c).after 5 t) = _
  rw [after0_5]
  unfold out0_5
  rw [View.canon_unit_zero hz2]
  simp only [View.ld_unit_zero (S := S800x384) hz2, View.ld_unit_zero (S := S384x512) hz2, View.ld_unit_zero (S := S512) hz1,
    View.ld_unit_zero (S := S512x1152) hz2, View.ld_unit_zero (S := S1152) hz1]
  funext j
  obtain ⟨p, q, rfl⟩ : ∃ (p : Fin 800) (q : Fin 512), j = ix2 p q := ⟨j 0, j 1, eq_ix2 j⟩
  have hN : grid0.N = 250 := N_0
  have ht : t.val < 250 := by have h : t.val < grid0.N := t.isLt; omega
  have hp : p.val < 800 := p.isLt
  have hq : q.val < 512 := q.isLt
  obtain ⟨-, -, -, -, -, -, -, -, e0, e1, -⟩ := idx_facts t
  have hemb : ((cfg0.win 5).blk t).view.emb (ix2 p q)
      = (ix2 (⟨t.val * 800 + p.val, by omega⟩ : Fin 200000) q : S200000x512.Idx) := by
    funext a; apply Fin.ext
    match a with
    | ⟨0, _⟩ => show win0_5.index t (0 : Fin 2) * 800 + 1 * p.val = t.val * 800 + p.val; omega
    | ⟨1, _⟩ => show win0_5.index t (1 : Fin 2) * 512 + 1 * q.val = q.val; omega
  show k0_pay2 (F := Ideal) (iblk0 V c 0 t) (iblk0 V c 1 t) (iblk0 V c 2 t) (iblk0 V c 3 t) (iblk0 V c 4 t) (ix2 p q)
    = newS (V c main_v20) (V c main_v21) (V c main_arg4) (V c main_v22) (V c main_arg6) (((cfg0.win 5).blk t).view.emb (ix2 p q))
  rw [hemb]
  refine (pay2_apply (iblk0 V c 0 t) (iblk0 V c 1 t) (iblk0 V c 2 t) (iblk0 V c 3 t) (iblk0 V c 4 t) p q
    (⟨q.val, by omega⟩ : Fin 1152) (Nat.zero_add _).symm).trans ?_
  exact row_eq_newT (V c main_v20) (V c main_v21) (V c main_arg4) (V c main_v22) (V c main_arg6)
    (iblk0 V c 0 t) (iblk0 V c 1 t) (iblk0 V c 2 t) (iblk0 V c 3 t) (iblk0 V c 4 t)
    (⟨t.val * 800 + p.val, by omega⟩ : Fin 200000) p
    (fun l => iblk0_0_apply V c t p l _ rfl) (iblk0_1_eq V c t) (iblk0_2_eq V c t) (iblk0_3_eq V c t) (iblk0_4_eq V c t)
    (⟨q.val, by omega⟩ : Fin 1152)

/-- An index of the array is in point `t`'s block of window 5 iff each coordinate is in the block's range. -/
theorem mem_blk5 (t : Fin cfg0.N) (i : S200000x512.Idx) :
    i ∈ ((cfg0.win 5).blk t).view.set ↔ ∀ a : Fin 2, win0_5.index t a * S800x512.size a ≤ (i a).val
      ∧ (i a).val < win0_5.index t a * S800x512.size a + S800x512.size a := by
  show i ∈ ((View.whole main_v23_0).slice (win0_5.rect t)).set ↔ _
  rw [View.set_slice_whole, Rect.mem_set_unit]
  exact Iff.rfl

/-- Row `r` of the array lies in the block of point `r / 800`, which is written back. -/
theorem cover5 (i : S200000x512.Idx) :
    ∃ t : Fin cfg0.N, (cfg0.win 5).flush t = true ∧ i ∈ ((cfg0.win 5).blk t).view.set := by
  have hi0 : (i 0).val < 200000 := (i 0).isLt
  have hi1 : (i 1).val < 512 := (i 1).isLt
  have hN : grid0.N = 250 := N_0
  obtain ⟨t, ht⟩ : ∃ t : Fin cfg0.N, t.val = (i 0).val / 800 :=
    ⟨⟨(i 0).val / 800, by show (i 0).val / 800 < grid0.N; rw [hN]; omega⟩, rfl⟩
  obtain ⟨-, -, -, -, -, -, -, -, e0, e1, -⟩ := idx_facts t
  refine ⟨t, flush0_5 t, ?_⟩
  rw [mem_blk5]
  intro a
  match a with
  | ⟨0, _⟩ =>
    show win0_5.index t (0 : Fin 2) * 800 ≤ (i 0).val ∧ (i 0).val < win0_5.index t (0 : Fin 2) * 800 + 800
    omega
  | ⟨1, _⟩ =>
    show win0_5.index t (1 : Fin 2) * 512 ≤ (i 1).val ∧ (i 1).val < win0_5.index t (1 : Fin 2) * 512 + 512
    omega

/-- The array of window 5 after the region: the new subject vectors of the arrays it was entered from. -/
theorem final0_5 (c : Dev nD) : (dat0 (F := Ideal) V c).arrAt 5 cfg0.N
    = newS (V c main_v20) (V c main_v21) (V c main_arg4) (V c main_v22) (V c main_arg6) :=
  (dat0 (F := Ideal) V c).arrAt_eq_of_cover 5
    (newS (V c main_v20) (V c main_v21) (V c main_arg4) (V c main_v22) (V c main_arg6))
    (fun t _ => flushed5_eq V c t) cover5

/-- Point `t` writes back, into window 6, block `t` of the new predicate vectors of the arrays the region is entered from:
    the block's row `p` is row `800 t + p`, its column `q` is column `512 + q` of net1's output. -/
theorem flushed6_eq (c : Dev nD) (t : Fin cfg0.N) :
    (dat0 (F := Ideal) V c).flushed 6 t = ((cfg0.win 6).blk t).view.read (Elt Ideal)
      (newP (V c main_v20) (V c main_v21) (V c main_arg4) (V c main_v22) (V c main_arg6)) := by
  show (cfg0.win 6).cut (grid0.coords t) ((dat0 V c).after 6 t) = _
  rw [after0_6]
  unfold out0_6
  rw [View.canon_unit_zero hz2]
  simp only [View.ld_unit_zero (S := S800x384) hz2, View.ld_unit_zero (S := S384x512) hz2, View.ld_unit_zero (S := S512) hz1,
    View.ld_unit_zero (S := S512x1152) hz2, View.ld_unit_zero (S := S1152) hz1]
  funext j
  obtain ⟨p, q, rfl⟩ : ∃ (p : Fin 800) (q : Fin 128), j = ix2 p q := ⟨j 0, j 1, eq_ix2 j⟩
  have hN : grid0.N = 250 := N_0
  have ht : t.val < 250 := by have h : t.val < grid0.N := t.isLt; omega
  have hp : p.val < 800 := p.isLt
  have hq : q.val < 128 := q.isLt
  obtain ⟨-, -, -, -, -, -, -, -, -, -, e0, e1, -⟩ := idx_facts t
  have hemb : ((cfg0.win 6).blk t).view.emb (ix2 p q)
      = (ix2 (⟨t.val * 800 + p.val, by omega⟩ : Fin 200000) q : S200000x128.Idx) := by
    funext a; apply Fin.ext
    match a with
    | ⟨0, _⟩ => show win0_6.index t (0 : Fin 2) * 800 + 1 * p.val = t.val * 800 + p.val; omega
    | ⟨1, _⟩ => show win0_6.index t (1 : Fin 2) * 128 + 1 * q.val = q.val; omega
  show k0_pay3 (F := Ideal) (iblk0 V c 0 t) (iblk0 V c 1 t) (iblk0 V c 2 t) (iblk0 V c 3 t) (iblk0 V c 4 t) (ix2 p q)
    = newP (V c main_v20) (V c main_v21) (V c main_arg4) (V c main_v22) (V c main_arg6) (((cfg0.win 6).blk t).view.emb (ix2 p q))
  rw [hemb]
  refine (pay3_apply (iblk0 V c 0 t) (iblk0 V c 1 t) (iblk0 V c 2 t) (iblk0 V c 3 t) (iblk0 V c 4 t) p q
    (⟨512 + q.val, by omega⟩ : Fin 1152) rfl).trans ?_
  exact row_eq_newT (V c main_v20) (V c main_v21) (V c main_arg4) (V c main_v22) (V c main_arg6)
    (iblk0 V c 0 t) (iblk0 V c 1 t) (iblk0 V c 2 t) (iblk0 V c 3 t) (iblk0 V c 4 t)
    (⟨t.val * 800 + p.val, by omega⟩ : Fin 200000) p
    (fun l => iblk0_0_apply V c t p l _ rfl) (iblk0_1_eq V c t) (iblk0_2_eq V c t) (iblk0_3_eq V c t) (iblk0_4_eq V c t)
    (⟨512 + q.val, by omega⟩ : Fin 1152)

/-- An index of the array is in point `t`'s block of window 6 iff each coordinate is in the block's range. -/
theorem mem_blk6 (t : Fin cfg0.N) (i : S200000x128.Idx) :
    i ∈ ((cfg0.win 6).blk t).view.set ↔ ∀ a : Fin 2, win0_6.index t a * S800x128.size a ≤ (i a).val
      ∧ (i a).val < win0_6.index t a * S800x128.size a + S800x128.size a := by
  show i ∈ ((View.whole main_v23_1).slice (win0_6.rect t)).set ↔ _
  rw [View.set_slice_whole, Rect.mem_set_unit]
  exact Iff.rfl

/-- Row `r` of the array lies in the block of point `r / 800`, which is written back. -/
theorem cover6 (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hN : grid0.N = 250 := N_0
  obtain ⟨t, ht⟩ : ∃ t : Fin cfg0.N, t.val = (i 0).val / 800 :=
    ⟨⟨(i 0).val / 800, by show (i 0).val / 800 < grid0.N; rw [hN]; omega⟩, rfl⟩
  obtain ⟨-, -, -, -, -, -, -, -, -, -, e0, e1, -⟩ := idx_facts t
  refine ⟨t, flush0_6 t, ?_⟩
  rw [mem_blk6]
  intro a
  match a with
  | ⟨0, _⟩ =>
    show win0_6.index t (0 : Fin 2) * 800 ≤ (i 0).val ∧ (i 0).val < win0_6.index t (0 : Fin 2) * 800 + 800
    omega
  | ⟨1, _⟩ =>
    show win0_6.index t (1 : Fin 2) * 128 ≤ (i 1).val ∧ (i 1).val < win0_6.index t (1 : Fin 2) * 128 + 128
    omega

/-- The array of window 6 after the region: the new predicate vectors of the arrays it was entered from. -/
theorem final0_6 (c : Dev nD) : (dat0 (F := Ideal) V c).arrAt 6 cfg0.N
    = newP (V c main_v20) (V c main_v21) (V c main_arg4) (V c main_v22) (V c main_arg6) :=
  (dat0 (F := Ideal) V c).arrAt_eq_of_cover 6
    (newP (V c main_v20) (V c main_v21) (V c main_arg4) (V c main_v22) (V c main_arg6))
    (fun t _ => flushed6_eq V c t) cover6

/-- Point `t` writes back, into window 7, block `t` of the new object vectors of the arrays the region is entered from:
    the block's row `p` is row `800 t + p`, its column `q` is column `640 + q` of net1's output. -/
theorem flushed7_eq (c : Dev nD) (t : Fin cfg0.N) :
    (dat0 (F := Ideal) V c).flushed 7 t = ((cfg0.win 7).blk t).view.read (Elt Ideal)
      (newO (V c main_v20) (V c main_v21) (V c main_arg4) (V c main_v22) (V c main_arg6)) := by
  show (cfg0.win 7).cut (grid0.coords t) ((dat0 V c).after 7 t) = _
  rw [after0_7]
  unfold out0_7
  rw [View.canon_unit_zero hz2]
  simp only [View.ld_unit_zero (S := S800x384) hz2, View.ld_unit_zero (S := S384x512) hz2, View.ld_unit_zero (S := S512) hz1,
    View.ld_unit_zero (S := S512x1152) hz2, View.ld_unit_zero (S := S1152) hz1]
  funext j
  obtain ⟨p, q, rfl⟩ : ∃ (p : Fin 800) (q : Fin 512), j = ix2 p q := ⟨j 0, j 1, eq_ix2 j⟩
  have hN : grid0.N = 250 := N_0
  have ht : t.val < 250 := by have h : t.val < grid0.N := t.isLt; omega
  have hp : p.val < 800 := p.isLt
  have hq : q.val < 512 := q.isLt
  obtain ⟨-, -, -, -, -, -, -, -, -, -, -, -, e0, e1⟩ := idx_facts t
  have hemb : ((cfg0.win 7).blk t).view.emb (ix2 p q)
      = (ix2 (⟨t.val * 800 + p.val, by omega⟩ : Fin 200000) q : S200000x512.Idx) := by
    funext a; apply Fin.ext
    match a with
    | ⟨0, _⟩ => show win0_7.index t (0 : Fin 2) * 800 + 1 * p.val = t.val * 800 + p.val; omega
    | ⟨1, _⟩ => show win0_7.index t (1 : Fin 2) * 512 + 1 * q.val = q.val; omega
  show k0_pay4 (F := Ideal) (iblk0 V c 0 t) (iblk0 V c 1 t) (iblk0 V c 2 t) (iblk0 V c 3 t) (iblk0 V c 4 t) (ix2 p q)
    = newO (V c main_v20) (V c main_v21) (V c main_arg4) (V c main_v22) (V c main_arg6) (((cfg0.win 7).blk t).view.emb (ix2 p q))
  rw [hemb]
  refine (pay4_apply (iblk0 V c 0 t) (iblk0 V c 1 t) (iblk0 V c 2 t) (iblk0 V c 3 t) (iblk0 V c 4 t) p q
    (⟨640 + q.val, by omega⟩ : Fin 1152) rfl).trans ?_
  exact row_eq_newT (V c main_v20) (V c main_v21) (V c main_arg4) (V c main_v22) (V c main_arg6)
    (iblk0 V c 0 t) (iblk0 V c 1 t) (iblk0 V c 2 t) (iblk0 V c 3 t) (iblk0 V c 4 t)
    (⟨t.val * 800 + p.val, by omega⟩ : Fin 200000) p
    (fun l => iblk0_0_apply V c t p l _ rfl) (iblk0_1_eq V c t) (iblk0_2_eq V c t) (iblk0_3_eq V c t) (iblk0_4_eq V c t)
    (⟨640 + q.val, by omega⟩ : Fin 1152)

/-- An index of the array is in point `t`'s block of window 7 iff each coordinate is in the block's range. -/
theorem mem_blk7 (t : Fin cfg0.N) (i : S200000x512.Idx) :
    i ∈ ((cfg0.win 7).blk t).view.set ↔ ∀ a : Fin 2, win0_7.index t a * S800x512.size a ≤ (i a).val
      ∧ (i a).val < win0_7.index t a * S800x512.size a + S800x512.size a := by
  show i ∈ ((View.whole main_v23_2).slice (win0_7.rect t)).set ↔ _
  rw [View.set_slice_whole, Rect.mem_set_unit]
  exact Iff.rfl

/-- Row `r` of the array lies in the block of point `r / 800`, which is written back. -/
theorem cover7 (i : S200000x512.Idx) :
    ∃ t : Fin cfg0.N, (cfg0.win 7).flush t = true ∧ i ∈ ((cfg0.win 7).blk t).view.set := by
  have hi0 : (i 0).val < 200000 := (i 0).isLt
  have hi1 : (i 1).val < 512 := (i 1).isLt
  have hN : grid0.N = 250 := N_0
  obtain ⟨t, ht⟩ : ∃ t : Fin cfg0.N, t.val = (i 0).val / 800 :=
    ⟨⟨(i 0).val / 800, by show (i 0).val / 800 < grid0.N; rw [hN]; omega⟩, rfl⟩
  obtain ⟨-, -, -, -, -, -, -, -, -, -, -, -, e0, e1⟩ := idx_facts t
  refine ⟨t, flush0_7 t, ?_⟩
  rw [mem_blk7]
  intro a
  match a with
  | ⟨0, _⟩ =>
    show win0_7.index t (0 : Fin 2) * 800 ≤ (i 0).val ∧ (i 0).val < win0_7.index t (0 : Fin 2) * 800 + 800
    omega
  | ⟨1, _⟩ =>
    show win0_7.index t (1 : Fin 2) * 512 ≤ (i 1).val ∧ (i 1).val < win0_7.index t (1 : Fin 2) * 512 + 512
    omega

/-- The array of window 7 after the region: the new object vectors of the arrays it was entered from. -/
theorem final0_7 (c : Dev nD) : (dat0 (F := Ideal) V c).arrAt 7 cfg0.N
    = newO (V c main_v20) (V c main_v21) (V c main_arg4) (V c main_v22) (V c main_arg6) :=
  (dat0 (F := Ideal) V c).arrAt_eq_of_cover 7
    (newO (V c main_v20) (V c main_v21) (V c main_arg4) (V c main_v22) (V c main_arg6))
    (fun t _ => flushed7_eq V c t) cover7

end Cert.KernelIdeal.Hand0

end
-- ==== Proof.KIValue1.lean ====
/-
  Region 1 read as mathematics: the array the second call leaves, index by index.

  The body's arithmetic at row p and column q of a block is the mean pool of row p (the pooled sums over the
  clipped count), through the hidden layer with its ReLU, through the output layer with its ReLU. Point t of the
  grid reads rows 2000 t .. 2000 t + 1999 of the pooled sums and of the counts and the weights and biases whole,
  and writes rows 2000 t .. 2000 t + 1999 of the result; the 25 points tile the 50000 rows (row r is written by
  point r / 2000), so the result array ends holding the row-by-row formula of the specification everywhere.
-/
import proofs.«180546_j3530463117740_1_alg».proof.Proof.KIBody1
import proofs.«180546_j3530463117740_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.TripleConv

/-! ## One column broadcast over many -/

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products: a row of the left operand against a column of the right -/

theorem lhsA_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhsA_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhsA_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhsA_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The first product at (p, k): row p of the left operand against column k of the right. -/
theorem mulA_apply (x : FVec Ideal S2000x512 .bf16) (w : FVec Ideal S512x512 .bf16) (p : Fin 2000) (k : Fin 512) :
    matmul dot_S2000x512_S512x512_S2000x512_1_0_0_1_n_n none x w (constant (F := Ideal) S2000x512 .f32 0x00000000#32) (ix2 p k)
      = ∑ l : Fin 512, x (ix2 p l) * w (ix2 l k) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun l _ => ?_
  have hl := ValueIdx.contrEquiv1_symm_val dot_S2000x512_S512x512_S2000x512_1_0_0_1_n_n 512 rfl rfl l
  have el : dot_S2000x512_S512x512_S2000x512_1_0_0_1_n_n.lhsIdx (ix2 p k) ((ValueIdx.contrEquiv1 dot_S2000x512_S512x512_S2000x512_1_0_0_1_n_n 512 rfl rfl).symm l) = ix2 p l := funext fun a => Fin.ext (by
    match a with
    | ⟨0, _⟩ => exact lhsA_0 _ _
    | ⟨1, _⟩ => exact (lhsA_1 _ _).trans hl)
  have er : dot_S2000x512_S512x512_S2000x512_1_0_0_1_n_n.rhsIdx (ix2 p k) ((ValueIdx.contrEquiv1 dot_S2000x512_S512x512_S2000x512_1_0_0_1_n_n 512 rfl rfl).symm l) = ix2 l k := funext fun a => Fin.ext (by
    match a with
    | ⟨0, _⟩ => exact (rhsA_0 _ _).trans hl
    | ⟨1, _⟩ => exact rhsA_1 _ _)
  rw [el, er]

theorem lhsB_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhsB_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhsB_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhsB_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The second product at (p, q): row p of the left operand against column q of the right. -/
theorem mulB_apply (x : FVec Ideal S2000x512 .bf16) (w : FVec Ideal S512x128 .bf16) (p : Fin 2000) (q : Fin 128) :
    matmul dot_S2000x512_S512x128_S2000x128_1_0_0_1_n_n none x w (constant (F := Ideal) S2000x128 .f32 0x00000000#32) (ix2 p q)
      = ∑ k : Fin 512, x (ix2 p k) * w (ix2 k q) := by
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact lhsB_0 _ _
    | ⟨1, _⟩ => exact (lhsB_1 _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (rhsB_0 _ _).trans hk
    | ⟨1, _⟩ => exact rhsB_1 _ _)
  rw [el, er]

/-! ## The body's arithmetic at an index -/

/-- The block computed from six loaded blocks, at row p and column q: the mean pool of row p (the pooled sums over
    the clipped count), through the hidden layer with its ReLU, through the output layer with its ReLU. -/
theorem pay_apply (counts : Vec Ideal S2000x1 .f32) (pooled : Vec Ideal S2000x512 .f32) (W2a : Vec Ideal S512x512 .bf16)
    (b2a : Vec Ideal S512 .f32) (W2b : Vec Ideal S512x128 .bf16) (b2b : Vec Ideal S128 .f32) (p : Fin 2000) (q : Fin 128) :
    k1_pay1 (F := Ideal) counts pooled W2a b2a W2b b2b (ix2 p q)
      = max ((∑ k : Fin 512, (max ((∑ l : Fin 512, Ideal.div (pooled (ix2 p l)) (min capW (max oneW (counts (ix2 p (0 : Fin 1))))) * W2a (ix2 l k)) + b2a (ix1 k)) zeroW) * W2b (ix2 k q)) + b2b (ix1 q)) zeroW := by
  unfold k1_pay1
  simp only [shapeCast_self, maximumf_apply, minimumf_apply, addf_apply, divf_apply, truncf_apply, broadcast_apply,
    mulB_apply, mulA_apply, broadcastTo_1b_ab_apply, shapeCast_a_1a_apply, broadcastTo_a1_ab_apply]
  rfl

/-! ## The specification at an index given by its two coordinates -/

/-- The specification's output layer at an index whose coordinates are row r and column q, written out down to the
    argument arrays. -/
theorem newObj_apply (P : (⟨2, ![50000, 512]⟩ : Shape).Idx → EReal) (C : (⟨2, ![50000, 1]⟩ : Shape).Idx → EReal)
    (W2a : (⟨2, ![512, 512]⟩ : Shape).Idx → EReal) (b2a : (⟨1, ![512]⟩ : Shape).Idx → EReal)
    (W2b : (⟨2, ![512, 128]⟩ : Shape).Idx → EReal) (b2b : (⟨1, ![128]⟩ : Shape).Idx → EReal)
    (r : Fin 50000) (q : Fin 128) (i : (⟨2, ![50000, 128]⟩ : Shape).Idx) (h0 : (i 0).val = r.val) (h1 : (i 1).val = q.val) :
    newObj P C W2a b2a W2b b2b i
      = max ((∑ k : Fin 512, (max ((∑ l : Fin 512, Ideal.div (P (ix2 r l)) (min capW (max oneW (C (ix2 r (0 : Fin 1))))) * W2a (ix2 l k)) + b2a (ix1 k)) zeroW) * W2b (ix2 k q)) + b2b (ix1 q)) zeroW := by
  obtain rfl : i 0 = r := Fin.ext h0
  obtain rfl : i 1 = q := Fin.ext h1
  rfl

/-! ## The grid's index maps, and each input block as rows of its array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- At point t the pooled sums, the counts and the result are at block row t, block column 0; the weights and
    biases at block 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row p of point t's block of the pooled sums is row 2000 t + p of the array. -/
theorem pooled_block (c : Dev nD) (t : Fin cfg1.N) (p : Fin 2000) (l : Fin 512) (r : Fin 50000) (hr : r.val = t.val * 2000 + p.val) :
    (iblk1 V c 0 t : Vec Ideal S2000x512 .f32) (ix2 p l) = (V c main_v38 : S50000x512.Idx → EReal) (ix2 r l) := by
  obtain ⟨e00, e01, -⟩ := block_index t
  unfold iblk1
  rw [View.read_apply]
  show V c main_v38 (((cfg1.win 0).blk t).view.emb (ix2 p l)) = V c main_v38 (ix2 r l)
  refine congrArg _ (funext fun a => Fin.ext ?_)
  match a with
  | ⟨0, _⟩ => show win1_0.index t (0 : Fin 2) * 2000 + 1 * p.val = r.val; rw [e00, hr]; omega
  | ⟨1, _⟩ => show win1_0.index t (1 : Fin 2) * 512 + 1 * l.val = l.val; rw [e01]; omega

/-- Row p of point t's block of the counts is row 2000 t + p of the array. -/
theorem counts_block (c : Dev nD) (t : Fin cfg1.N) (p : Fin 2000) (z : Fin 1) (r : Fin 50000) (hr : r.val = t.val * 2000 + p.val) :
    (iblk1 V c 1 t : Vec Ideal S2000x1 .f32) (ix2 p z) = (V c main_v55 : S50000x1.Idx → EReal) (ix2 r z) := by
  obtain ⟨-, -, e10, e11, -⟩ := block_index t
  unfold iblk1
  rw [View.read_apply]
  show V c main_v55 (((cfg1.win 1).blk t).view.emb (ix2 p z)) = V c main_v55 (ix2 r z)
  refine congrArg _ (funext fun a => Fin.ext ?_)
  match a with
  | ⟨0, _⟩ => show win1_1.index t (0 : Fin 2) * 2000 + 1 * p.val = r.val; rw [e10, hr]; omega
  | ⟨1, _⟩ => show win1_1.index t (1 : Fin 2) * 1 + 1 * z.val = z.val; rw [e11]; omega

/-- The hidden layer's weights are read whole at every point. -/
theorem w2a_block (c : Dev nD) (t : Fin cfg1.N) (l k : Fin 512) :
    (iblk1 V c 2 t : Vec Ideal S512x512 .bf16) (ix2 l k) = (V c main_v56 : S512x512.Idx → EReal) (ix2 l k) := by
  obtain ⟨-, -, -, -, e20, e21, -⟩ := block_index t
  unfold iblk1
  rw [View.read_apply]
  show V c main_v56 (((cfg1.win 2).blk t).view.emb (ix2 l k)) = V c main_v56 (ix2 l k)
  refine congrArg _ (funext fun a => Fin.ext ?_)
  match a with
  | ⟨0, _⟩ => show win1_2.index t (0 : Fin 2) * 512 + 1 * l.val = l.val; rw [e20]; omega
  | ⟨1, _⟩ => show win1_2.index t (1 : Fin 2) * 512 + 1 * k.val = k.val; rw [e21]; omega

/-- The hidden layer's bias is read whole at every point. -/
theorem b2a_block (c : Dev nD) (t : Fin cfg1.N) (k : Fin 512) :
    (iblk1 V c 3 t : Vec Ideal S512 .f32) (ix1 k) = (V c main_arg8 : S512.Idx → EReal) (ix1 k) := by
  obtain ⟨-, -, -, -, -, -, e3, -⟩ := block_index t
  unfold iblk1
  rw [View.read_apply]
  show V c main_arg8 (((cfg1.win 3).blk t).view.emb (ix1 k)) = V c main_arg8 (ix1 k)
  refine congrArg _ (funext fun a => Fin.ext ?_)
  match a with
  | ⟨0, _⟩ => show win1_3.index t (0 : Fin 1) * 512 + 1 * k.val = k.val; rw [e3]; omega

/-- The output layer's weights are read whole at every point. -/
theorem w2b_block (c : Dev nD) (t : Fin cfg1.N) (k : Fin 512) (q : Fin 128) :
    (iblk1 V c 4 t : Vec Ideal S512x128 .bf16) (ix2 k q) = (V c main_v57 : S512x128.Idx → EReal) (ix2 k q) := by
  obtain ⟨-, -, -, -, -, -, -, e40, e41, -⟩ := block_index t
  unfold iblk1
  rw [View.read_apply]
  show V c main_v57 (((cfg1.win 4).blk t).view.emb (ix2 k q)) = V c main_v57 (ix2 k q)
  refine congrArg _ (funext fun a => Fin.ext ?_)
  match a with
  | ⟨0, _⟩ => show win1_4.index t (0 : Fin 2) * 512 + 1 * k.val = k.val; rw [e40]; omega
  | ⟨1, _⟩ => show win1_4.index t (1 : Fin 2) * 128 + 1 * q.val = q.val; rw [e41]; omega

/-- The output layer's bias is read whole at every point. -/
theorem b2b_block (c : Dev nD) (t : Fin cfg1.N) (q : Fin 128) :
    (iblk1 V c 5 t : Vec Ideal S128 .f32) (ix1 q) = (V c main_arg10 : S128.Idx → EReal) (ix1 q) := by
  obtain ⟨-, -, -, -, -, -, -, -, -, e5, -⟩ := block_index t
  unfold iblk1
  rw [View.read_apply]
  show V c main_arg10 (((cfg1.win 5).blk t).view.emb (ix1 q)) = V c main_arg10 (ix1 q)
  refine congrArg _ (funext fun a => Fin.ext ?_)
  match a with
  | ⟨0, _⟩ => show win1_5.index t (0 : Fin 1) * 128 + 1 * q.val = q.val; rw [e5]; omega

/-! ## What a point writes back, and the array after the last point -/

/-- Point t writes back block t of the specification's output layer of the six arrays the region is entered from. -/
theorem flushed_eq (c : Dev nD) (t : Fin cfg1.N) :
    (dat1 (F := Ideal) V c).flushed 6 t
      = ((cfg1.win 6).blk t).view.read (Elt Ideal)
          (newObj (V c main_v38) (V c main_v55) (V c main_v56) (V c main_arg8) (V c main_v57) (V c main_arg10)) := by
  show (cfg1.win 6).cut (grid1.coords t) ((dat1 V c).after 6 t) = _
  rw [after1_6]
  unfold out1_6
  rw [View.canon_unit_zero zero2]
  simp only [View.ld_unit_zero (S := S2000x512) zero2, View.ld_unit_zero (S := S2000x1) zero2,
    View.ld_unit_zero (S := S512x512) zero2, View.ld_unit_zero (S := S512) zero1,
    View.ld_unit_zero (S := S512x128) zero2, View.ld_unit_zero (S := S128) zero1]
  obtain ⟨-, -, -, -, -, -, -, -, -, -, e60, e61⟩ := block_index t
  have hN : grid1.N = 25 := N_1
  have ht : t.val < 25 := by have h : t.val < grid1.N := t.isLt; rw [hN] at h; exact h
  funext j
  obtain ⟨p, q, rfl⟩ : ∃ (p : Fin 2000) (q : Fin 128), j = ix2 p q := ⟨j 0, j 1, eq_ix2 j⟩
  have hp : p.val < 2000 := p.isLt
  refine (pay_apply (iblk1 V c 1 t) (iblk1 V c 0 t) (iblk1 V c 2 t) (iblk1 V c 3 t) (iblk1 V c 4 t) (iblk1 V c 5 t) p q).trans ?_
  show _ = newObj (V c main_v38) (V c main_v55) (V c main_v56) (V c main_arg8) (V c main_v57) (V c main_arg10)
    (((cfg1.win 6).blk t).view.emb (ix2 p q))
  rw [newObj_apply _ _ _ _ _ _ (⟨t.val * 2000 + p.val, by omega⟩ : Fin 50000) q _
    (by show win1_6.index t (0 : Fin 2) * 2000 + 1 * p.val = t.val * 2000 + p.val; rw [e60]; omega)
    (by show win1_6.index t (1 : Fin 2) * 128 + 1 * q.val = q.val; rw [e61]; omega)]
  simp only [pooled_block V c t p _ ⟨t.val * 2000 + p.val, by omega⟩ rfl, counts_block V c t p _ ⟨t.val * 2000 + p.val, by omega⟩ rfl,
    w2a_block V c t, b2a_block V c t, w2b_block V c t, b2b_block V c t]

/-- An index of the result array is in point t's block iff each coordinate is in the block's range on its axis. -/
theorem mem_block (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v58).slice (win1_6.rect t)).set ↔ _
  rw [View.set_slice_whole, Rect.mem_set_unit]
  exact Iff.rfl

/-- Every index of the result array is written: row r by point r / 2000. -/
theorem covered (i : S50000x128.Idx) :
    ∃ t : Fin cfg1.N, (cfg1.win 6).flush t = true ∧ i ∈ ((cfg1.win 6).blk t).view.set := by
  have hN : grid1.N = 25 := N_1
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [hN]; omega⟩, rfl⟩
  obtain ⟨-, -, -, -, -, -, -, -, -, -, e60, e61⟩ := block_index t
  refine ⟨t, flush1_6 t, ?_⟩
  rw [mem_block]
  intro a
  match a with
  | ⟨0, _⟩ => show win1_6.index t (0 : Fin 2) * 2000 ≤ (i 0).val ∧ (i 0).val < win1_6.index t (0 : Fin 2) * 2000 + 2000; rw [e60, ht]; omega
  | ⟨1, _⟩ => show win1_6.index t (1 : Fin 2) * 128 ≤ (i 1).val ∧ (i 1).val < win1_6.index t (1 : Fin 2) * 128 + 128; rw [e61]; omega

/-- The result array after the region: the specification's output layer of the pooled sums, the counts, the two
    weight matrices and the two bias vectors as the region finds them. -/
theorem final1_6 (c : Dev nD) :
    (dat1 (F := Ideal) V c).arrAt 6 cfg1.N
      = newObj (V c main_v38) (V c main_v55) (V c main_v56) (V c main_arg8) (V c main_v57) (V c main_arg10) :=
  (dat1 (F := Ideal) V c).arrAt_eq_of_cover 6 _ (fun t _ => flushed_eq V c t) covered

end Cert.KernelIdeal.Hand1

end
-- ==== Proof.RefValue.lean ====
/-
  The reference's two MLPs, read index by index, are the specification's formulas.

  net1: the reference's row-by-row dense layers on the gathered triples (operations 19 to 28) are
  `hid1` and `newT` of the gathered rows, and its three column slices (operations 29, 30, 31) are the
  column ranges `newS`, `newP`, `newO`.
  net2: the pooled sums over the clipped counts (operations 63 to 66) are `avg`, and the two dense
  layers that follow (operations 67 to 76) are `hid2` and `newObj`.

  Every step is a reading of one operation at an index: a contraction is the sum over the contracted
  coordinate, a bias row is the bias at the column, a ReLU is the maximum with the zero word, a slice shifts
  the column, a broadcast forgets a coordinate. The gathered rows, the pooled sums and the counts stay
  unread: both sides name them by the same term.
-/
import proofs.«180546_j3530463117740_1_alg».proof.Proof.Gen.ReferenceIdeal.Read
import proofs.«180546_j3530463117740_1_alg».proof.Proof.Spec

noncomputable section

namespace Cert.ReferenceIdeal.RefValue

open Cert.ReferenceIdeal Cert.ReferenceIdeal.Gen Idealize.ShloMosaic Idealize.ShloMosaic.ValueIdx Cert.TripleConv

variable (x0 : (⟨S50000x128, .f32⟩ : BufTy).Contents (Elt Ideal))
  (x1 : (⟨S200000x128, .f32⟩ : BufTy).Contents (Elt Ideal))
  (x2 : (⟨S200000x2, .i32⟩ : BufTy).Contents (Elt Ideal))
  (x3 : (⟨S384x512, .f32⟩ : BufTy).Contents (Elt Ideal))
  (x4 : (⟨S512, .f32⟩ : BufTy).Contents (Elt Ideal))
  (x5 : (⟨S512x1152, .f32⟩ : BufTy).Contents (Elt Ideal))
  (x6 : (⟨S1152, .f32⟩ : BufTy).Contents (Elt Ideal))
  (x7 : (⟨S512x512, .f32⟩ : BufTy).Contents (Elt Ideal))
  (x8 : (⟨S512, .f32⟩ : BufTy).Contents (Elt Ideal))
  (x9 : (⟨S512x128, .f32⟩ : BufTy).Contents (Elt Ideal))
  (x10 : (⟨S128, .f32⟩ : BufTy).Contents (Elt Ideal))

/-! ## net1 -/

/-- The first dense layer with its ReLU, at row `r` and unit `k`: the contraction over the 384 input
    columns, plus the bias at `k`, maximum with zero. -/
theorem hidden1 (r : Fin 200000) (k : Fin 512) :
    Read.val_main_v23 (F := Ideal) x0 x1 x2 x3 x4 (ix2 r k)
      = hid1 (Read.val_main_v18 (F := Ideal) x0 x1 x2) x3 x4 r k := by
  have el : ∀ l : Fin 384, Read.lidx_main_v19 (ix2 r k) l = ix2 r l := fun l =>
    funext fun a => Fin.ext (by match a with | ⟨0, _⟩ => rfl | ⟨1, _⟩ => rfl)
  have er : ∀ l : Fin 384, Read.ridx_main_v19 (ix2 r k) l = ix2 l k := fun l =>
    funext fun a => Fin.ext (by match a with | ⟨0, _⟩ => rfl | ⟨1, _⟩ => rfl)
  have eb : Read.idx_main_v20 (Read.idx_main_v21 (ix2 r k)) = ix1 k :=
    funext fun a => Fin.ext (by match a with | ⟨0, _⟩ => rfl)
  rw [Read.val_main_v23_apply, Read.val_main_v22_apply, Read.val_main_v19_apply, Read.val_main_v21_apply,
    Read.val_main_v20_apply, Read.val_main_call0_v0_apply, Read.val_main_call0_cst_apply]
  simp only [el, er, eb, Ideal.maximumf_def, Ideal.addf_def, Ideal.ofBits_def, hid1]

/-- The second dense layer with its ReLU, at row `r` and column `j` of the 1152: the contraction over the
    512 hidden units, plus the bias at `j`, maximum with zero. -/
theorem output1 (r : Fin 200000) (j : Fin 1152) :
    Read.val_main_v28 (F := Ideal) x0 x1 x2 x3 x4 x5 x6 (ix2 r j)
      = newT (Read.val_main_v18 (F := Ideal) x0 x1 x2) x3 x4 x5 x6 r j := by
  have el : ∀ k : Fin 512, Read.lidx_main_v24 (ix2 r j) k = ix2 r k := fun k =>
    funext fun a => Fin.ext (by match a with | ⟨0, _⟩ => rfl | ⟨1, _⟩ => rfl)
  have er : ∀ k : Fin 512, Read.ridx_main_v24 (ix2 r j) k = ix2 k j := fun k =>
    funext fun a => Fin.ext (by match a with | ⟨0, _⟩ => rfl | ⟨1, _⟩ => rfl)
  have eb : Read.idx_main_v25 (Read.idx_main_v26 (ix2 r j)) = ix1 j :=
    funext fun a => Fin.ext (by match a with | ⟨0, _⟩ => rfl)
  rw [Read.val_main_v28_apply, Read.val_main_v27_apply, Read.val_main_v24_apply, Read.val_main_v26_apply,
    Read.val_main_v25_apply, Read.val_main_call1_v0_apply, Read.val_main_call1_cst_apply]
  simp only [el, er, eb, hidden1, Ideal.maximumf_def, Ideal.addf_def, Ideal.ofBits_def, newT]

/-- Columns 0 … 511 of net1's output are the new subject vectors. -/
theorem ref_newS :
    Read.val_main_v29 (F := Ideal) x0 x1 x2 x3 x4 x5 x6
      = Cert.TripleConv.newS (Read.val_main_v18 (F := Ideal) x0 x1 x2) x3 x4 x5 x6 := by
  funext i
  obtain ⟨r, c, rfl⟩ : ∃ (r : Fin 200000) (c : Fin 512), i = ix2 r c := ⟨i 0, i 1, eq_ix2 i⟩
  have e : Read.idx_main_v29 (ix2 r c) = ix2 r (⟨c.val, by omega⟩ : Fin 1152) :=
    funext fun a => Fin.ext (by match a with | ⟨0, _⟩ => rfl | ⟨1, _⟩ => rfl)
  rw [Read.val_main_v29_apply, e, output1]
  rfl

/-- Columns 512 … 639 of net1's output are the new predicate vectors. -/
theorem ref_newP :
    Read.val_main_v30 (F := Ideal) x0 x1 x2 x3 x4 x5 x6
      = Cert.TripleConv.newP (Read.val_main_v18 (F := Ideal) x0 x1 x2) x3 x4 x5 x6 := by
  funext i
  obtain ⟨r, c, rfl⟩ : ∃ (r : Fin 200000) (c : Fin 128), i = ix2 r c := ⟨i 0, i 1, eq_ix2 i⟩
  have e : Read.idx_main_v30 (ix2 r c) = ix2 r (⟨512 + c.val, by omega⟩ : Fin 1152) :=
    funext fun a => Fin.ext (by match a with | ⟨0, _⟩ => rfl | ⟨1, _⟩ => rfl)
  rw [Read.val_main_v30_apply, e, output1]
  rfl

/-- Columns 640 … 1151 of net1's output are the new object vectors. -/
theorem ref_newO :
    Read.val_main_v31 (F := Ideal) x0 x1 x2 x3 x4 x5 x6
      = Cert.TripleConv.newO (Read.val_main_v18 (F := Ideal) x0 x1 x2) x3 x4 x5 x6 := by
  funext i
  obtain ⟨r, c, rfl⟩ : ∃ (r : Fin 200000) (c : Fin 512), i = ix2 r c := ⟨i 0, i 1, eq_ix2 i⟩
  have e : Read.idx_main_v31 (ix2 r c) = ix2 r (⟨640 + c.val, by omega⟩ : Fin 1152) :=
    funext fun a => Fin.ext (by match a with | ⟨0, _⟩ => rfl | ⟨1, _⟩ => rfl)
  rw [Read.val_main_v31_apply, e, output1]
  rfl

/-! ## net2 -/

/-- The mean pool at row `r`, column `l`: the pooled sum over the count of the row clipped to
    [1, 50000]; the count's column is broadcast along the 512 columns. -/
theorem meanPool (r : Fin 50000) (l : Fin 512) :
    Read.val_main_v66 (F := Ideal) x0 x1 x2 x3 x4 x5 x6 (ix2 r l)
      = avg (Read.val_main_v46 (F := Ideal) x0 x1 x2 x3 x4 x5 x6)
          (fun j => Read.val_main_v62 (F := Ideal) x2 (ix1 (j 0))) r l := by
  have ec : Read.idx_main_v64 (Read.idx_main_v65 (ix2 r l)) = ix1 r :=
    funext fun a => Fin.ext (by match a with | ⟨0, _⟩ => rfl)
  rw [Read.val_main_v66_apply, Read.val_main_v65_apply, Read.val_main_v64_apply, Read.val_main_v63_apply,
    Read.val_main_call2_v4_apply, Read.val_main_call2_v3_apply, Read.val_main_cst_14_apply,
    Read.val_main_call2_v2_apply, Read.val_main_call2_v1_apply, Read.val_main_call2_v0_apply,
    Read.val_main_cst_13_apply]
  simp only [ec, Ideal.hostDivf_def, Ideal.minimumf_def, Ideal.maximumf_def, Ideal.ofBits_def, avg]

/-- The first dense layer of net2 with its ReLU, at row `r` and unit `k`. -/
theorem hidden2 (r : Fin 50000) (k : Fin 512) :
    Read.val_main_v71 (F := Ideal) x0 x1 x2 x3 x4 x5 x6 x7 x8 (ix2 r k)
      = hid2 (Read.val_main_v46 (F := Ideal) x0 x1 x2 x3 x4 x5 x6)
          (fun j => Read.val_main_v62 (F := Ideal) x2 (ix1 (j 0))) x7 x8 r k := by
  have el : ∀ l : Fin 512, Read.lidx_main_v67 (ix2 r k) l = ix2 r l := fun l =>
    funext fun a => Fin.ext (by match a with | ⟨0, _⟩ => rfl | ⟨1, _⟩ => rfl)
  have er : ∀ l : Fin 512, Read.ridx_main_v67 (ix2 r k) l = ix2 l k := fun l =>
    funext fun a => Fin.ext (by match a with | ⟨0, _⟩ => rfl | ⟨1, _⟩ => rfl)
  have eb : Read.idx_main_v68 (Read.idx_main_v69 (ix2 r k)) = ix1 k :=
    funext fun a => Fin.ext (by match a with | ⟨0, _⟩ => rfl)
  rw [Read.val_main_v71_apply, Read.val_main_v70_apply, Read.val_main_v67_apply, Read.val_main_v69_apply,
    Read.val_main_v68_apply, Read.val_main_call3_v0_apply, Read.val_main_call3_cst_apply]
  simp only [el, er, eb, meanPool, Ideal.maximumf_def, Ideal.addf_def, Ideal.ofBits_def, hid2]

/-- The second dense layer of net2 with its ReLU is the layer's new object vectors. -/
theorem ref_newObj :
    Read.val_main_v76 (F := Ideal) x0 x1 x2 x3 x4 x5 x6 x7 x8 x9 x10
      = Cert.TripleConv.newObj (Read.val_main_v46 (F := Ideal) x0 x1 x2 x3 x4 x5 x6)
          (fun j => Read.val_main_v62 (F := Ideal) x2 (ValueIdx.ix1 (j 0))) x7 x8 x9 x10 := by
  funext i
  obtain ⟨r, j, rfl⟩ : ∃ (r : Fin 50000) (j : Fin 128), i = ix2 r j := ⟨i 0, i 1, eq_ix2 i⟩
  have el : ∀ k : Fin 512, Read.lidx_main_v72 (ix2 r j) k = ix2 r k := fun k =>
    funext fun a => Fin.ext (by match a with | ⟨0, _⟩ => rfl | ⟨1, _⟩ => rfl)
  have er : ∀ k : Fin 512, Read.ridx_main_v72 (ix2 r j) k = ix2 k j := fun k =>
    funext fun a => Fin.ext (by match a with | ⟨0, _⟩ => rfl | ⟨1, _⟩ => rfl)
  have eb : Read.idx_main_v73 (Read.idx_main_v74 (ix2 r j)) = ix1 j :=
    funext fun a => Fin.ext (by match a with | ⟨0, _⟩ => rfl)
  rw [Read.val_main_v76_apply, Read.val_main_v75_apply, Read.val_main_v72_apply, Read.val_main_v74_apply,
    Read.val_main_v73_apply, Read.val_main_call4_v0_apply, Read.val_main_call4_cst_apply]
  simp only [el, er, eb, hidden2, Ideal.maximumf_def, Ideal.addf_def, Ideal.ofBits_def]
  rfl

end Cert.ReferenceIdeal.RefValue

end
-- ==== Proof.Bridge.lean ====
/-
  The bridge: at the ideal instance the idealized kernel's two results are the reference's, as functions of the arguments.

  The kernel's program is: a first stretch of host operations (the subject and object index columns of the edge
  list, a negative index counted from the end; the gathered subject, predicate and object rows concatenated; the
  weights in the narrower float format), net1 as a pallas_call, a second stretch (the new subject and object vectors
  scatter-added into zeros at the subject and object indices; the counts likewise from ones; the counts laid out
  as a column), and the mean pool with net2 as a second pallas_call. The reference applies the same host operations
  to the same arguments and computes the two MLPs with whole-array contractions. So the proof is a chain of
  equalities between the kernel's buffers and the reference's stages, in program order: the arrays region 0 is
  entered from; the three arrays it leaves (the specification's `newS`, `newP`, `newO` of them, which are the
  reference's three column slices); the arrays region 1 is entered from (the scatter-adds are never opened: both
  sides apply the same operation to operands already known equal); the array it leaves (`newObj`, the reference's
  last operation). A change of float format is the identity on extended reals, so every cast disappears.
-/
import proofs.«180546_j3530463117740_1_alg».proof.Proof.KIRun
import proofs.«180546_j3530463117740_1_alg».proof.Proof.KIValue0
import proofs.«180546_j3530463117740_1_alg».proof.Proof.KIValue1
import proofs.«180546_j3530463117740_1_alg».proof.Proof.RefValue
import Idealize.ShloMosaic.Lib.StableHlo.Run
import Idealize.ShloMosaic.Lib.Pipeline.Value

set_option maxRecDepth 16384

noncomputable section

namespace Cert.Bridge

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Cert.KernelIdeal.Hand0 (final0_5 final0_6 final0_7)
open Cert.KernelIdeal.Hand1 (final1_6)

/-! ## What region 0 is entered from -/

/-- The gathered triples: the first host stretch leaves in region 0's first array the concatenation of the subject's
    row, the predicate's row and the object's row, the subject and object indices read with a negative index counted
    from the end — the reference's operation 18 of the same arguments (a change of float format is the identity). -/
theorem X_eq : V1 m ρ c main_v20 = Cert.ReferenceIdeal.Read.val_main_v18 (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  after_results
  unfold Cert.ReferenceIdeal.Read.val_main_v18 Cert.ReferenceIdeal.Read.val_main_v10 Cert.ReferenceIdeal.Read.val_main_v17 Cert.ReferenceIdeal.Read.val_main_v9 Cert.ReferenceIdeal.Read.val_main_v16 Cert.ReferenceIdeal.Read.val_main_v8 Cert.ReferenceIdeal.Read.val_main_v15 Cert.ReferenceIdeal.Read.val_main_v7 Cert.ReferenceIdeal.Read.val_main_v14 Cert.ReferenceIdeal.Read.val_main_v5 Cert.ReferenceIdeal.Read.val_main_v12 Cert.ReferenceIdeal.Read.val_main_v4 Cert.ReferenceIdeal.Read.val_main_v11 Cert.ReferenceIdeal.Read.val_main_v6 Cert.ReferenceIdeal.Read.val_main_v13 Cert.ReferenceIdeal.Read.val_main_v1 Cert.ReferenceIdeal.Read.val_main_v3 Cert.ReferenceIdeal.Read.val_main_v0 Cert.ReferenceIdeal.Read.val_main_v2 Cert.ReferenceIdeal.Read.val_main_c Cert.ReferenceIdeal.Read.val_main_c_0 Cert.ReferenceIdeal.Read.val_main_c_1 Cert.ReferenceIdeal.Read.val_main_c_2
  rfl

/-- The two weight matrices of net1 reach the region through a change of float format: unchanged. -/
theorem W1a_eq : (V1 m ρ c main_v21 : (⟨2, ![384, 512]⟩ : Shape).Idx → EReal) = (m ((c : Thread nD τ).loc main_arg3)) := by
  show StableHlo.after hostOps0 (W0 m ρ c) (Proc.devRef .tc main_v21) = _
  after_results
  rfl
theorem W1b_eq : (V1 m ρ c main_v22 : (⟨2, ![512, 1152]⟩ : Shape).Idx → EReal) = (m ((c : Thread nD τ).loc main_arg5)) := by
  show StableHlo.after hostOps0 (W0 m ρ c) (Proc.devRef .tc main_v22) = _
  after_results
  rfl
/-- The two bias vectors are arguments no host operation writes. -/
theorem b1a_eq : V1 m ρ c main_arg4 = (m ((c : Thread nD τ).loc main_arg4)) := (W1_of m ρ c main_arg4 (by decide)).trans rfl
theorem b1b_eq : V1 m ρ c main_arg6 = (m ((c : Thread nD τ).loc main_arg6)) := (W1_of m ρ c main_arg6 (by decide)).trans rfl

/-! ## What region 0 leaves: the reference's three column slices -/

theorem newS_eq : W2 m ρ c (Proc.devRef .tc main_v23_0) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 5).trans <| (final0_5 (V1 m ρ) c).trans <| by
    rw [X_eq, W1a_eq, W1b_eq, b1a_eq, b1b_eq]
    exact (Cert.ReferenceIdeal.RefValue.ref_newS _ _ _ _ _ _ _).symm
theorem newP_eq : W2 m ρ c (Proc.devRef .tc main_v23_1) = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 6).trans <| (final0_6 (V1 m ρ) c).trans <| by
    rw [X_eq, W1a_eq, W1b_eq, b1a_eq, b1b_eq]
    exact (Cert.ReferenceIdeal.RefValue.ref_newP _ _ _ _ _ _ _).symm
theorem newO_eq : W2 m ρ c (Proc.devRef .tc main_v23_2) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 7).trans <| (final0_7 (V1 m ρ) c).trans <| by
    rw [X_eq, W1a_eq, W1b_eq, b1a_eq, b1b_eq]
    exact (Cert.ReferenceIdeal.RefValue.ref_newO _ _ _ _ _ _ _).symm

/-! ## The subject and object index columns, which the second host stretch reads again -/

theorem s_eq : W2 m ρ c (Proc.devRef .tc main_v1) = Cert.ReferenceIdeal.Read.val_main_v1 (F := Ideal) (m ((c : Thread nD τ).loc main_arg2)) := by
  refine (W2_of_ne m ρ c main_v1 (by decide)).trans ?_
  show StableHlo.after hostOps0 (W0 m ρ c) (Proc.devRef .tc main_v1) = _
  after_results
  unfold Cert.ReferenceIdeal.Read.val_main_v1 Cert.ReferenceIdeal.Read.val_main_v0
  rfl
theorem o_eq : W2 m ρ c (Proc.devRef .tc main_v3) = Cert.ReferenceIdeal.Read.val_main_v3 (F := Ideal) (m ((c : Thread nD τ).loc main_arg2)) := by
  refine (W2_of_ne m ρ c main_v3 (by decide)).trans ?_
  show StableHlo.after hostOps0 (W0 m ρ c) (Proc.devRef .tc main_v3) = _
  after_results
  unfold Cert.ReferenceIdeal.Read.val_main_v3 Cert.ReferenceIdeal.Read.val_main_v2
  rfl

/-! ## What region 1 is entered from -/

/-- An index column as a scatter reads it: a negative index counted from the end, laid out as a column. -/
def idxCol (s : (⟨S200000, .i32⟩ : BufTy).Contents (Elt Ideal)) : (⟨S200000x1, .i32⟩ : BufTy).Contents (Elt Ideal) :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 50000#32))) s)

/-- The pooling: `ns` scatter-added at the subject indices into zeros, then `no` at the object indices. -/
def poolK (s o : (⟨S200000, .i32⟩ : BufTy).Contents (Elt Ideal)) (ns no : (⟨S200000x512, .f32⟩ : BufTy).Contents (Elt Ideal)) :
    (⟨S50000x512, .f32⟩ : BufTy).Contents (Elt Ideal) :=
  Host.scatterAdd (F := Ideal) scatter_S50000x512_S200000x1_S200000x512_1_0_0_1
    (Host.scatterAdd (F := Ideal) scatter_S50000x512_S200000x1_S200000x512_1_0_0_1
      (broadcastInDim S50000x512 ![] bcast_S_S50000x512 (constant (F := Ideal) S_ .f32 0x00000000#32)) (idxCol s) ns)
    (idxCol o) no

/-- The counting: ones scatter-added at the subject and at the object indices into zeros. -/
def cntK (s o : (⟨S200000, .i32⟩ : BufTy).Contents (Elt Ideal)) : (⟨S50000, .f32⟩ : BufTy).Contents (Elt Ideal) :=
  Host.scatterAdd (F := Ideal) scatter_S50000_S200000x1_S200000_n_0_0_1
    (Host.scatterAdd (F := Ideal) scatter_S50000_S200000x1_S200000_n_0_0_1
      (broadcastInDim S50000 ![] bcast_S_S50000 (constant (F := Ideal) S_ .f32 0x00000000#32)) (idxCol s)
      (broadcastInDim S200000 ![] bcast_S_S200000 (constant (F := Ideal) S_ .f32 0x3F800000#32)))
    (idxCol o) (broadcastInDim S200000 ![] bcast_S_S200000 (constant (F := Ideal) S_ .f32 0x3F800000#32))

set_option maxHeartbeats 4000000 in
/-- From ANY contents, the second host stretch leaves in region 1's first array the pooling of the four buffers it
    reads: the two index columns and region 0's first and third output arrays. -/
theorem host1_pooled (U : Valuation τ sig (Elt Ideal)) :
    StableHlo.after (hostOps1 (F := Ideal)) U (Proc.devRef .tc main_v38)
      = poolK (U (Proc.devRef .tc main_v1)) (U (Proc.devRef .tc main_v3)) (U (Proc.devRef .tc main_v23_0)) (U (Proc.devRef .tc main_v23_2)) := by
  after_results_simp
  rfl

set_option maxHeartbeats 4000000 in
/-- and in its second array the counting of the two index columns, laid out as a column. -/
theorem host1_counts (U : Valuation τ sig (Elt Ideal)) :
    StableHlo.after (hostOps1 (F := Ideal)) U (Proc.devRef .tc main_v55)
      = broadcastInDim S50000x1 ![0] bcast_S50000_S50000x1_0 (cntK (U (Proc.devRef .tc main_v1)) (U (Proc.devRef .tc main_v3))) := by
  after_results_simp
  rfl

/-- The reference pools the same way: its operation 46 is the pooling of its index columns and its two outer column
    slices. -/
theorem ref_pooled (x0 : (⟨S50000x128, .f32⟩ : BufTy).Contents (Elt Ideal)) (x1 : (⟨S200000x128, .f32⟩ : BufTy).Contents (Elt Ideal))
    (x2 : (⟨S200000x2, .i32⟩ : BufTy).Contents (Elt Ideal)) (x3 : (⟨S384x512, .f32⟩ : BufTy).Contents (Elt Ideal))
    (x4 : (⟨S512, .f32⟩ : BufTy).Contents (Elt Ideal)) (x5 : (⟨S512x1152, .f32⟩ : BufTy).Contents (Elt Ideal))
    (x6 : (⟨S1152, .f32⟩ : BufTy).Contents (Elt Ideal)) :
    Cert.ReferenceIdeal.Read.val_main_v46 (F := Ideal) x0 x1 x2 x3 x4 x5 x6
      = poolK (Cert.ReferenceIdeal.Read.val_main_v1 (F := Ideal) x2) (Cert.ReferenceIdeal.Read.val_main_v3 (F := Ideal) x2)
          (Cert.ReferenceIdeal.Read.val_main_v29 (F := Ideal) x0 x1 x2 x3 x4 x5 x6) (Cert.ReferenceIdeal.Read.val_main_v31 (F := Ideal) x0 x1 x2 x3 x4 x5 x6) := by
  unfold Cert.ReferenceIdeal.Read.val_main_v46 Cert.ReferenceIdeal.Read.val_main_v39 Cert.ReferenceIdeal.Read.val_main_v45 Cert.ReferenceIdeal.Read.val_main_v44 Cert.ReferenceIdeal.Read.val_main_v43 Cert.ReferenceIdeal.Read.val_main_v41 Cert.ReferenceIdeal.Read.val_main_v42 Cert.ReferenceIdeal.Read.val_main_v40 Cert.ReferenceIdeal.Read.val_main_c_5 Cert.ReferenceIdeal.Read.val_main_c_6 Cert.ReferenceIdeal.Read.val_main_v38 Cert.ReferenceIdeal.Read.val_main_v37 Cert.ReferenceIdeal.Read.val_main_v36 Cert.ReferenceIdeal.Read.val_main_v34 Cert.ReferenceIdeal.Read.val_main_v35 Cert.ReferenceIdeal.Read.val_main_v33 Cert.ReferenceIdeal.Read.val_main_c_3 Cert.ReferenceIdeal.Read.val_main_c_4 Cert.ReferenceIdeal.Read.val_main_v32 Cert.ReferenceIdeal.Read.val_main_cst
  generalize Cert.ReferenceIdeal.Read.val_main_v29 (F := Ideal) x0 x1 x2 x3 x4 x5 x6 = ns
  generalize Cert.ReferenceIdeal.Read.val_main_v31 (F := Ideal) x0 x1 x2 x3 x4 x5 x6 = no
  rfl

/-- and counts the same way: its operation 62 is the counting of its index columns. -/
theorem ref_counts (x2 : (⟨S200000x2, .i32⟩ : BufTy).Contents (Elt Ideal)) :
    Cert.ReferenceIdeal.Read.val_main_v62 (F := Ideal) x2 = cntK (Cert.ReferenceIdeal.Read.val_main_v1 (F := Ideal) x2) (Cert.ReferenceIdeal.Read.val_main_v3 (F := Ideal) x2) := by
  unfold Cert.ReferenceIdeal.Read.val_main_v62 Cert.ReferenceIdeal.Read.val_main_v55 Cert.ReferenceIdeal.Read.val_main_v61 Cert.ReferenceIdeal.Read.val_main_v60 Cert.ReferenceIdeal.Read.val_main_v59 Cert.ReferenceIdeal.Read.val_main_v57 Cert.ReferenceIdeal.Read.val_main_v58 Cert.ReferenceIdeal.Read.val_main_v56 Cert.ReferenceIdeal.Read.val_main_c_11 Cert.ReferenceIdeal.Read.val_main_c_12 Cert.ReferenceIdeal.Read.val_main_v54 Cert.ReferenceIdeal.Read.val_main_v53 Cert.ReferenceIdeal.Read.val_main_v52 Cert.ReferenceIdeal.Read.val_main_v50 Cert.ReferenceIdeal.Read.val_main_v51 Cert.ReferenceIdeal.Read.val_main_v49 Cert.ReferenceIdeal.Read.val_main_c_9 Cert.ReferenceIdeal.Read.val_main_c_10 Cert.ReferenceIdeal.Read.val_main_v48 Cert.ReferenceIdeal.Read.val_main_cst_8 Cert.ReferenceIdeal.Read.val_main_v47 Cert.ReferenceIdeal.Read.val_main_cst_7
  rfl

/-- A vector laid out as a column, read at a column index, is the vector at the row. -/
theorem col_apply (y : (⟨1, ![50000]⟩ : Shape).Idx → EReal) :
    broadcastInDim S50000x1 ![0] bcast_S50000_S50000x1_0 y = fun j => y (ValueIdx.ix1 (j 0)) := by
  funext j
  exact broadcastInDim_apply _ bcast_S50000_S50000x1_0 y j (ValueIdx.ix1 (j 0)) (fun a => match a with
    | ⟨0, _⟩ => by show (j 0).val = if (50000 : Nat) = 1 then 0 else (j 0).val; rw [if_neg (by decide)])

/-- The pooled sums region 1 is entered from are the reference's. -/
theorem pooled_eq : V3 m ρ c main_v38 = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (host1_pooled (W2 m ρ c)).trans ?_
  rw [s_eq m ρ c, o_eq m ρ c, newS_eq m ρ c, newO_eq m ρ c]
  exact (ref_pooled _ _ _ _ _ _ _).symm

/-- The contribution counts region 1 is entered from, as the column the kernel reads, are the reference's counts. -/
theorem counts_eq : V3 m ρ c main_v55 = (fun j => Cert.ReferenceIdeal.Read.val_main_v62 (F := Ideal) (m ((c : Thread nD τ).loc main_arg2)) (ValueIdx.ix1 (j 0))) := by
  refine (host1_counts (W2 m ρ c)).trans ?_
  rw [s_eq m ρ c, o_eq m ρ c, ← ref_counts]
  exact col_apply _

theorem W2_arg7 : W2 m ρ c (Proc.devRef .tc main_arg7) = (m ((c : Thread nD τ).loc main_arg7)) :=
  (W2_of_ne m ρ c main_arg7 (by decide)).trans <| (W1_of m ρ c main_arg7 (by decide)).trans rfl
theorem W2_arg9 : W2 m ρ c (Proc.devRef .tc main_arg9) = (m ((c : Thread nD τ).loc main_arg9)) :=
  (W2_of_ne m ρ c main_arg9 (by decide)).trans <| (W1_of m ρ c main_arg9 (by decide)).trans rfl
/-- The two weight matrices of net2 reach the region through a change of float format: unchanged. -/
theorem W2a_eq : (V3 m ρ c main_v56 : (⟨2, ![512, 512]⟩ : Shape).Idx → EReal) = (m ((c : Thread nD τ).loc main_arg7)) := by
  show StableHlo.after hostOps1 (W2 m ρ c) (Proc.devRef .tc main_v56) = _
  after_results
  rw [W2_arg7]
  rfl
theorem W2b_eq : (V3 m ρ c main_v57 : (⟨2, ![512, 128]⟩ : Shape).Idx → EReal) = (m ((c : Thread nD τ).loc main_arg9)) := by
  show StableHlo.after hostOps1 (W2 m ρ c) (Proc.devRef .tc main_v57) = _
  after_results
  rw [W2_arg9]
  rfl
theorem b2a_eq : V3 m ρ c main_arg8 = (m ((c : Thread nD τ).loc main_arg8)) :=
  (W3_of m ρ c main_arg8 (by decide)).trans <| (W2_of_ne m ρ c main_arg8 (by decide)).trans <| (W1_of m ρ c main_arg8 (by decide)).trans rfl
theorem b2b_eq : V3 m ρ c main_arg10 = (m ((c : Thread nD τ).loc main_arg10)) :=
  (W3_of m ρ c main_arg10 (by decide)).trans <| (W2_of_ne m ρ c main_arg10 (by decide)).trans <| (W1_of m ρ c main_arg10 (by decide)).trans rfl

/-! ## The two results -/

/-- The first result, region 1's output array, is the reference's last operation of the same arguments. -/
theorem result0 : W4 m ρ c (Proc.devRef .tc main_v58) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_main_v58 m ρ c).trans <| (final1_6 (V3 m ρ) c).trans <| by
    rw [pooled_eq, counts_eq, W2a_eq, W2b_eq, b2a_eq, b2b_eq]
    exact (Cert.ReferenceIdeal.RefValue.ref_newObj _ _ _ _ _ _ _ _ _ _ _).symm

/-- The second result, the new predicate vectors, is the reference's middle column slice. -/
theorem result1 : W4 m ρ c (Proc.devRef .tc main_v23_1) = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v23_1 (by decide)).trans <| (W3_of m ρ c main_v23_1 (by decide)).trans <| newP_eq m ρ c

end Cert.Bridge

end
-- ==== Proof.lean ====
/-
  The certificate of the graph triple convolution: the Pallas kernel (two pallas_calls — net1 on the gathered
  triples, and the mean pool with net2 on the pooled sums — among host gathers and scatter-adds) against the plain
  jnp reference.

  Frames. The kernel's @main is two stretches of host operations and two pipelined regions. Each region's body is
  run once at a symbolic grid point (whole-block loads, one pure payload per output, whole-block stores), which
  gives the pipeline's proof data and the body obligation; the launch over the four segments then says that every
  weakly fair execution terminates with every unscoped buffer at the last of five valuations folded from the launch
  memory (`Hand.run_all`), and no item writes an argument. The same text serves the word-level program and the
  idealized one (it is generic in the float instance). The reference has no kernel: its frame is its run.

  Values. At the ideal instance the first result is region 1's output array and the second is region 0's middle
  output array; `Cert.Bridge` shows them equal to the reference's two results as functions of the arguments.
  No law used needs the inputs to be finite: both sides are the same sums, maxima and quotients of the same
  extended reals, so the precondition is never opened.

  Nothing of the kernel is rewritten by the idealization, so `preserves` is trivial.
-/
import proofs.«180546_j3530463117740_1_alg».proof.Defs
import proofs.«180546_j3530463117740_1_alg».proof.Proof.Gen.Kernel
import proofs.«180546_j3530463117740_1_alg».proof.Proof.Gen.KernelIdeal
import proofs.«180546_j3530463117740_1_alg».proof.Proof.Gen.ReferenceIdeal
import proofs.«180546_j3530463117740_1_alg».proof.Proof.Gen.Pre_finite_inputs
import proofs.«180546_j3530463117740_1_alg».proof.Proof.Gen.ReferenceIdeal.Run
import proofs.«180546_j3530463117740_1_alg».proof.Proof.Gen.ReferenceIdeal.Read
import proofs.«180546_j3530463117740_1_alg».proof.Proof.KRun
import proofs.«180546_j3530463117740_1_alg».proof.Proof.KIRun
import proofs.«180546_j3530463117740_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_p : Cert.frame_Kernel := fun m ρ _ =>
  (θ_run (Cert.Kernel.defs (F := Bits)) _ _).mono (fun _ h c =>
    ⟨(h c _ (Cert.Kernel.Hand.mem_uc Cert.Kernel.main_arg0 (by decide))).trans (Cert.Kernel.Hand.W4_main_arg0 m ρ c),
      (h c _ (Cert.Kernel.Hand.mem_uc Cert.Kernel.main_arg1 (by decide))).trans (Cert.Kernel.Hand.W4_main_arg1 m ρ c),
      (h c _ (Cert.Kernel.Hand.mem_uc Cert.Kernel.main_arg2 (by decide))).trans (Cert.Kernel.Hand.W4_main_arg2 m ρ c),
      (h c _ (Cert.Kernel.Hand.mem_uc Cert.Kernel.main_arg3 (by decide))).trans (Cert.Kernel.Hand.W4_main_arg3 m ρ c),
      (h c _ (Cert.Kernel.Hand.mem_uc Cert.Kernel.main_arg4 (by decide))).trans (Cert.Kernel.Hand.W4_main_arg4 m ρ c),
      (h c _ (Cert.Kernel.Hand.mem_uc Cert.Kernel.main_arg5 (by decide))).trans (Cert.Kernel.Hand.W4_main_arg5 m ρ c),
      (h c _ (Cert.Kernel.Hand.mem_uc Cert.Kernel.main_arg6 (by decide))).trans (Cert.Kernel.Hand.W4_main_arg6 m ρ c),
      (h c _ (Cert.Kernel.Hand.mem_uc Cert.Kernel.main_arg7 (by decide))).trans (Cert.Kernel.Hand.W4_main_arg7 m ρ c),
      (h c _ (Cert.Kernel.Hand.mem_uc Cert.Kernel.main_arg8 (by decide))).trans (Cert.Kernel.Hand.W4_main_arg8 m ρ c),
      (h c _ (Cert.Kernel.Hand.mem_uc Cert.Kernel.main_arg9 (by decide))).trans (Cert.Kernel.Hand.W4_main_arg9 m ρ c),
      (h c _ (Cert.Kernel.Hand.mem_uc Cert.Kernel.main_arg10 (by decide))).trans (Cert.Kernel.Hand.W4_main_arg10 m ρ c)⟩)
    (Cert.Kernel.Hand.run_all (F := Bits) m ρ)

/-- The idealized kernel runs and leaves its arguments as launched. -/
theorem frame_pi : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c)⟩)
    (Cert.KernelIdeal.Hand.run_all (F := Ideal) m ρ)

/-- The reference runs and leaves its arguments as launched: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the same two results: the kernel's are
    its last valuation at the two result buffers, which the bridge shows to be the reference's last operation and its
    middle column slice of the kernel's arguments, and those are the reference's of its own, equal, arguments. -/
theorem algebraic : Cert.algebraic_KernelIdeal_ReferenceIdeal := by
  intro m ρ m' ρ' _ hagree
  refine ⟨fun c => Cert.KernelIdeal.Hand.W4 m ρ c (Proc.devRef .tc Cert.KernelIdeal.main_v58),
    fun c => Cert.KernelIdeal.Hand.W4 m ρ c (Proc.devRef .tc Cert.KernelIdeal.main_v23_1), ?_, ?_⟩
  · exact (θ_run (Cert.KernelIdeal.defs (F := Ideal)) _ _).mono (fun _ h c =>
      ⟨h c _ (Cert.KernelIdeal.Hand.mem_uc Cert.KernelIdeal.main_v58 (by decide)),
       h c _ (Cert.KernelIdeal.Hand.mem_uc Cert.KernelIdeal.main_v23_1 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c),
       (h c _ (Cert.KernelIdeal.Hand.mem_uc Cert.KernelIdeal.main_arg8 (by decide))).trans (Cert.KernelIdeal.Hand.W4_main_arg8 m ρ c),
       (h c _ (Cert.KernelIdeal.Hand.mem_uc Cert.KernelIdeal.main_arg9 (by decide))).trans (Cert.KernelIdeal.Hand.W4_main_arg9 m ρ c),
       (h c _ (Cert.KernelIdeal.Hand.mem_uc Cert.KernelIdeal.main_arg10 (by decide))).trans (Cert.KernelIdeal.Hand.W4_main_arg10 m ρ c)⟩)
      (Cert.KernelIdeal.Hand.run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [Cert.ReferenceIdeal.Read.val_main_v76_eq, h0, h1, h2, h3, h4, h5, h6, h7, h8, h9, h10]
      exact (Cert.Bridge.result0 m ρ c).symm
    · obtain ⟨h0, h1, h2, h3, h4, h5, h6, -⟩ := hagree c
      rw [h0, h1, h2, h3, h4, h5, h6]
      exact (Cert.ReferenceIdeal.Read.val_main_v30_eq _ _ _ _ _ _ _).trans (Cert.Bridge.result1 m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
